-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1 : Shape := ⟨3, ![4, 8192, 1]⟩
abbrev S_ : Shape := ⟨0, ![]⟩

class Facts : Prop where
  bcast_S_S4x8192x1 : S_.BroadcastsInDim S4x8192x1 (![] : Fin 0 → Fin S4x8192x1.rank)
  reducesTo_S4x8192x1_S_d0_1_2 : S4x8192x1.ReducesTo [0, 1, 2] S_
  h_S_ : 0 < S_.numel
  reducesTo_S_S_d : S_.ReducesTo [] S_

variable [Facts]

def fn_part3 {F : FTy → Type} [FloatOps F] (main_v44 : IVec S_ 1) (main_v47 : IVec S_ 1) : IVec S_ 1 :=
  let main_v48 : IVec S_ 1 := andi main_v44 main_v47
  main_v48

def fn_part2 {F : FTy → Type} [FloatOps F] (main_arg8 : FVec F S_ .f32) (main_arg9 : FVec F S_ .f32) (main_arg10 : FVec F S_ .f32) (main_arg11 : FVec F S_ .f32) (main_v28 : IVec S_ 1) (main_v31 : IVec S_ 1) : IVec S_ 1 :=
  let main_v32 : IVec S_ 1 := andi main_v28 main_v31
  let main_v33 : FVec F S_ .f32 := Host.absf main_arg8
  let main_cst_14 : FVec F S_ .f32 := constant S_ .f32 0x7F800000#32
  let main_v34 : IVec S_ 1 := cmpf .olt main_v33 main_cst_14
  let main_c_15 : IVec S_ 1 := constantI S_ 1 1#1
  let main_v35 : IVec S_ 1 := (fun x v => Host.reduce IntOp.andi x v reducesTo_S_S_d h_S_) main_v34 main_c_15
  let main_v36 : IVec S_ 1 := andi main_v32 main_v35
  let main_v37 : FVec F S_ .f32 := Host.absf main_arg9
  let main_cst_16 : FVec F S_ .f32 := constant S_ .f32 0x7F800000#32
  let main_v38 : IVec S_ 1 := cmpf .olt main_v37 main_cst_16
  let main_c_17 : IVec S_ 1 := constantI S_ 1 1#1
  let main_v39 : IVec S_ 1 := (fun x v => Host.reduce IntOp.andi x v reducesTo_S_S_d h_S_) main_v38 main_c_17
  let main_v40 : IVec S_ 1 := andi main_v36 main_v39
  let main_v41 : FVec F S_ .f32 := Host.absf main_arg10
  let main_cst_18 : FVec F S_ .f32 := constant S_ .f32 0x7F800000#32
  let main_v42 : IVec S_ 1 := cmpf .olt main_v41 main_cst_18
  let main_c_19 : IVec S_ 1 := constantI S_ 1 1#1
  let main_v43 : IVec S_ 1 := (fun x v => Host.reduce IntOp.andi x v reducesTo_S_S_d h_S_) main_v42 main_c_19
  let main_v44 : IVec S_ 1 := andi main_v40 main_v43
  let main_v45 : FVec F S_ .f32 := Host.absf main_arg11
  let main_cst_20 : FVec F S_ .f32 := constant S_ .f32 0x7F800000#32
  let main_v46 : IVec S_ 1 := cmpf .olt main_v45 main_cst_20
  let main_c_21 : IVec S_ 1 := constantI S_ 1 1#1
  let main_v47 : IVec S_ 1 := (fun x v => Host.reduce IntOp.andi x v reducesTo_S_S_d h_S_) main_v46 main_c_21
  fn_part3 (F := F) main_v44 main_v47

def fn_part1 {F : FTy → Type} [FloatOps F] (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) (main_v12 : IVec S_ 1) (main_v15 : IVec S_ 1) : IVec S_ 1 :=
  let main_v16 : IVec S_ 1 := andi main_v12 main_v15
  let main_v17 : FVec F S_ .f32 := Host.absf main_arg4
  let main_cst_6 : FVec F S_ .f32 := constant S_ .f32 0x7F800000#32
  let main_v18 : IVec S_ 1 := cmpf .olt main_v17 main_cst_6
  let main_c_7 : IVec S_ 1 := constantI S_ 1 1#1
  let main_v19 : IVec S_ 1 := (fun x v => Host.reduce IntOp.andi x v reducesTo_S_S_d h_S_) main_v18 main_c_7
  let main_v20 : IVec S_ 1 := andi main_v16 main_v19
  let main_v21 : FVec F S_ .f32 := Host.absf main_arg5
  let main_cst_8 : FVec F S_ .f32 := constant S_ .f32 0x7F800000#32
  let main_v22 : IVec S_ 1 := cmpf .olt main_v21 main_cst_8
  let main_c_9 : IVec S_ 1 := constantI S_ 1 1#1
  let main_v23 : IVec S_ 1 := (fun x v => Host.reduce IntOp.andi x v reducesTo_S_S_d h_S_) main_v22 main_c_9
  let main_v24 : IVec S_ 1 := andi main_v20 main_v23
  let main_v25 : FVec F S_ .f32 := Host.absf main_arg6
  let main_cst_10 : FVec F S_ .f32 := constant S_ .f32 0x7F800000#32
  let main_v26 : IVec S_ 1 := cmpf .olt main_v25 main_cst_10
  let main_c_11 : IVec S_ 1 := constantI S_ 1 1#1
  let main_v27 : IVec S_ 1 := (fun x v => Host.reduce IntOp.andi x v reducesTo_S_S_d h_S_) main_v26 main_c_11
  let main_v28 : IVec S_ 1 := andi main_v24 main_v27
  let main_v29 : FVec F S_ .f32 := Host.absf main_arg7
  let main_cst_12 : FVec F S_ .f32 := constant S_ .f32 0x7F800000#32
  let main_v30 : IVec S_ 1 := cmpf .olt main_v29 main_cst_12
  let main_c_13 : IVec S_ 1 := constantI S_ 1 1#1
  let main_v31 : IVec S_ 1 := (fun x v => Host.reduce IntOp.andi x v reducesTo_S_S_d h_S_) main_v30 main_c_13
  fn_part2 (F := F) main_arg8 main_arg9 main_arg10 main_arg11 main_v28 main_v31

def fn {F : FTy → Type} [FloatOps F] (main_arg0 : FVec F S4x8192x1 .f32) (main_arg1 : FVec F S4x8192x1 .f32) (main_arg2 : FVec F S_ .f32) (main_arg3 : FVec F S_ .f32) (main_arg4 : FVec F S_ .f32) (main_arg5 : FVec F S_ .f32) (main_arg6 : FVec F S_ .f32) (main_arg7 : FVec F S_ .f32) (main_arg8 : FVec F S_ .f32) (main_arg9 : FVec F S_ .f32) (main_arg10 : FVec F S_ .f32) (main_arg11 : FVec F S_ .f32) : IVec S_ 1 :=
  let main_v0 : FVec F S4x8192x1 .f32 := Host.absf main_arg0
  let main_cst : FVec F S_ .f32 := constant S_ .f32 0x7F800000#32
  let main_v1 : FVec F S4x8192x1 .f32 := broadcastInDim S4x8192x1 ![] bcast_S_S4x8192x1 main_cst
  let main_v2 : IVec S4x8192x1 1 := cmpf .olt main_v0 main_v1
  let main_c : IVec S_ 1 := constantI S_ 1 1#1
  let main_v3 : IVec S_ 1 := (fun x v => Host.reduce IntOp.andi x v reducesTo_S4x8192x1_S_d0_1_2 h_S_) main_v2 main_c
  let main_v4 : FVec F S4x8192x1 .f32 := Host.absf main_arg1
  let main_cst_0 : FVec F S_ .f32 := constant S_ .f32 0x7F800000#32
  let main_v5 : FVec F S4x8192x1 .f32 := broadcastInDim S4x8192x1 ![] bcast_S_S4x8192x1 main_cst_0
  let main_v6 : IVec S4x8192x1 1 := cmpf .olt main_v4 main_v5
  let main_c_1 : IVec S_ 1 := constantI S_ 1 1#1
  let main_v7 : IVec S_ 1 := (fun x v => Host.reduce IntOp.andi x v reducesTo_S4x8192x1_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S_ .f32 := Host.absf main_arg3
  let main_cst_4 : FVec F S_ .f32 := constant S_ .f32 0x7F800000#32
  let main_v14 : IVec S_ 1 := cmpf .olt main_v13 main_cst_4
  let main_c_5 : IVec S_ 1 := constantI S_ 1 1#1
  let main_v15 : IVec S_ 1 := (fun x v => Host.reduce IntOp.andi x v reducesTo_S_S_d h_S_) main_v14 main_c_5
  fn_part1 (F := F) main_arg4 main_arg5 main_arg6 main_arg7 main_arg8 main_arg9 main_arg10 main_arg11 main_v12 main_v15
-- ==== Kernel.lean ====
abbrev S4x8192x1 : Shape := ⟨3, ![4, 8192, 1]⟩
abbrev S_ : Shape := ⟨0, ![]⟩
abbrev S4x1x8192 : Shape := ⟨3, ![4, 1, 8192]⟩
abbrev S1x1024x1 : Shape := ⟨3, ![1, 1024, 1]⟩
abbrev S1x1x2048 : Shape := ⟨3, ![1, 1, 2048]⟩
abbrev S1x1x8192 : Shape := ⟨3, ![1, 1, 8192]⟩
abbrev S1024x1 : Shape := ⟨2, ![1024, 1]⟩
abbrev S1x8192 : Shape := ⟨2, ![1, 8192]⟩
abbrev S1x2048 : Shape := ⟨2, ![1, 2048]⟩
abbrev S1024x2048 : Shape := ⟨2, ![1024, 2048]⟩
abbrev S1024 : Shape := ⟨1, ![1024]⟩
abbrev S2048 : Shape := ⟨1, ![2048]⟩
abbrev S4x1 : Shape := ⟨2, ![4, 1]⟩
abbrev S4x1x1 : Shape := ⟨3, ![4, 1, 1]⟩
abbrev S4x8192 : Shape := ⟨2, ![4, 8192]⟩

abbrev nBuf : Space → Nat
  | .hbm => 72
  | .vmem => 14
  | .smem => 0
  | _ => 0

abbrev bufTy : (tb : Table) → Fin (tcTables nBuf tb) → BufTy
  | .hbm, ⟨0, _⟩ => ⟨S4x8192x1, .f32⟩
  | .hbm, ⟨1, _⟩ => ⟨S4x8192x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x1x8192, .f32⟩
  | .hbm, ⟨17, _⟩ => ⟨S4x1x8192, .f32⟩
  | .hbm, ⟨18, _⟩ => ⟨S4x1x8192, .f32⟩
  | .hbm, ⟨19, _⟩ => ⟨S4x1x8192, .f32⟩
  | .hbm, ⟨20, _⟩ => ⟨S4x1x8192, .f32⟩
  | .hbm, ⟨21, _⟩ => ⟨S4x1x8192, .f32⟩
  | .hbm, ⟨22, _⟩ => ⟨S4x1x8192, .f32⟩
  | .hbm, ⟨23, _⟩ => ⟨S4x1x8192, .f32⟩
  | .hbm, ⟨24, _⟩ => ⟨S4x1x8192, .f32⟩
  | .hbm, ⟨25, _⟩ => ⟨S4x8192x1, .f32⟩
  | .hbm, ⟨26, _⟩ => ⟨S4x1x8192, .f32⟩
  | .hbm, ⟨27, _⟩ => ⟨S4x8192x1, .f32⟩
  | .hbm, ⟨28, _⟩ => ⟨S4x8192x1, .f32⟩
  | .hbm, ⟨29, _⟩ => ⟨S4x1x8192, .f32⟩
  | .hbm, ⟨30, _⟩ => ⟨S4x1x8192, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x1x8192, .f32⟩
  | .hbm, ⟨36, _⟩ => ⟨S4x1x8192, .f32⟩
  | .hbm, ⟨37, _⟩ => ⟨S4x1x8192, .f32⟩
  | .hbm, ⟨38, _⟩ => ⟨S4x1x8192, .f32⟩
  | .hbm, ⟨39, _⟩ => ⟨S4x8192x1, .f32⟩
  | .hbm, ⟨40, _⟩ => ⟨S_, .f32⟩
  | .hbm, ⟨41, _⟩ => ⟨S4x1, .f32⟩
  | .hbm, ⟨42, _⟩ => ⟨S_, .f32⟩
  | .hbm, ⟨43, _⟩ => ⟨S4x1, .f32⟩
  | .hbm, ⟨44, _⟩ => ⟨S4x1, .f32⟩
  | .hbm, ⟨45, _⟩ => ⟨S4x1x1, .f32⟩
  | .hbm, ⟨46, _⟩ => ⟨S4x8192x1, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x1, .f32⟩
  | .hbm, ⟨51, _⟩ => ⟨S4x1x1, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x1, .f32⟩
  | .hbm, ⟨56, _⟩ => ⟨S_, .f32⟩
  | .hbm, ⟨57, _⟩ => ⟨S4x1, .f32⟩
  | .hbm, ⟨58, _⟩ => ⟨S4x1, .f32⟩
  | .hbm, ⟨59, _⟩ => ⟨S4x1x1, .f32⟩
  | .hbm, ⟨60, _⟩ => ⟨S4x8192x1, .f32⟩
  | .hbm, ⟨61, _⟩ => ⟨S4x8192x1, .f32⟩
  | .hbm, ⟨62, _⟩ => ⟨S4x8192x1, .f32⟩
  | .hbm, ⟨63, _⟩ => ⟨S_, .f32⟩
  | .hbm, ⟨64, _⟩ => ⟨S4x1, .f32⟩
  | .hbm, ⟨65, _⟩ => ⟨S4x1x1, .f32⟩
  | .hbm, ⟨66, _⟩ => ⟨S4x8192x1, .f32⟩
  | .hbm, ⟨67, _⟩ => ⟨S4x8192x1, .f32⟩
  | .hbm, ⟨68, _⟩ => ⟨S4x8192x1, .f32⟩
  | .hbm, ⟨69, _⟩ => ⟨S4x8192, .f32⟩
  | .hbm, ⟨70, _⟩ => ⟨S4x8192x1, .f32⟩
  | .hbm, ⟨71, _⟩ => ⟨S4x8192, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x1, .f32⟩
  | .local _ .vmem, ⟨3, _⟩ => ⟨S1x1024x1, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x1, .f32⟩
  | .local _ .vmem, ⟨9, _⟩ => ⟨S1x1024x1, .f32⟩
  | .local _ .vmem, ⟨10, _⟩ => ⟨S1x1x8192, .f32⟩
  | .local _ .vmem, ⟨11, _⟩ => ⟨S1x1x8192, .f32⟩
  | .local _ .vmem, ⟨12, _⟩ => ⟨S1024x1, .f32⟩
  | .local _ .vmem, ⟨13, _⟩ => ⟨S1x8192, .f32⟩
  | _, _ => ⟨S4x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c2048_i32 : BitVec 32 := 2048#32
  let v29 : BitVec 32 := Scalar.muli arg2 c2048_i32
  v29
def k0_off1 (i : grid0.Coords) : Fin 2 → Nat :=
  let c0_19 : Index := 0#32
  let arg2 : BitVec 32 := BitVec.ofNat 32 (i 2).val
  let c2048_i32 : BitVec 32 := 2048#32
  let v29 : BitVec 32 := Scalar.muli arg2 c2048_i32
  let v30 : BitVec 32 := v29
  let v31 : Index := Scalar.indexCast v30
  ![0, v31.toNat]
def k0_cond3 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_22 : BitVec 32 := 0#32
  let v44 : BitVec 1 := Scalar.cmpi .ne v43 c0_i32_22
  v44

def k0_cond4 (i : grid0.Coords) : BitVec 1 :=
  let arg1 : BitVec 32 := BitVec.ofNat 32 (i 1).val
  let c7_i32 : BitVec 32 := 7#32
  let v45 : BitVec 1 := Scalar.cmpi .eq arg1 c7_i32
  let arg2 : BitVec 32 := BitVec.ofNat 32 (i 2).val
  let c3_i32_23 : BitVec 32 := 3#32
  let v46 : BitVec 1 := Scalar.cmpi .eq arg2 c3_i32_23
  let v47 : BitVec 1 := Scalar.andi v45 v46
  let v48 : BitVec 32 := Scalar.extui v47
  let c0_i32_24 : BitVec 32 := 0#32
  let v49 : BitVec 1 := Scalar.cmpi .ne v48 c0_i32_24
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S_S4x8192x1 : S_.BroadcastsInDim S4x8192x1 (![] : Fin 0 → Fin S4x8192x1.rank)
  transposes_S4x8192x1_S4x1x8192_0_2_1 : S4x8192x1.Transposes [0, 2, 1] S4x1x8192
  bcast_S_S4x1x8192 : S_.BroadcastsInDim S4x1x8192 (![] : Fin 0 → Fin S4x1x8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  h_S1x2048 : 0 < S1x2048.numel
  reduces_S1024x2048_S2048 : S1024x2048.Reduces [0] S2048
  shapeCasts_S2048_S1x2048 : S2048.ShapeCasts S1x2048
  shapeCasts_S1x2048_S1x2048 : S1x2048.ShapeCasts S1x2048
  shapeCasts_S1024x1_S1x1024x1 : S1024x1.ShapeCasts S1x1024x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  transposes_S4x1x8192_S4x8192x1_0_2_1 : S4x1x8192.Transposes [0, 2, 1] S4x8192x1
  reducesTo_S4x8192x1_S4x1_d1 : S4x8192x1.ReducesTo [1] S4x1
  h_S_ : 0 < S_.numel
  bcast_S_S4x1 : S_.BroadcastsInDim S4x1 (![] : Fin 0 → Fin S4x1.rank)
  bcast_S4x1_S4x1x1_0_2 : S4x1.BroadcastsInDim S4x1x1 (![0, 2] : Fin 2 → Fin S4x1x1.rank)
  bcast_S4x1x1_S4x8192x1_0_1_2 : S4x1x1.BroadcastsInDim S4x8192x1 (![0, 1, 2] : Fin 3 → Fin S4x8192x1.rank)
  shapeCasts_S4x8192x1_S4x8192 : S4x8192x1.ShapeCasts S4x8192
  hrank0 : 0 < grid0.rank
  k0_mult1_dvd : ∀ i : grid0.Coords, 2048 ∣ (k0_mult1 i).toNat
  k0_off1_inb : ∀ i : grid0.Coords, ∀ a, (k0_off1 i) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S4x8192x1.size a
  hwx0_0 : ∀ i : grid0.Coords, EltTy.bits .f32 = 32 ∨ (Rect.block (s := S4x8192x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S4x8192x1.size a
  hwx0_1 : ∀ i : grid0.Coords, EltTy.bits .f32 = 32 ∨ (Rect.block (s := S4x8192x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x8192.size a
  hwx0_2 : ∀ i : grid0.Coords, EltTy.bits .f32 = 32 ∨ (Rect.block (s := S4x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x8192.size a
  hwx0_3 : ∀ i : grid0.Coords, EltTy.bits .f32 = 32 ∨ (Rect.block (s := S4x1x8192) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S4x8192x1.size a
  hwx0_4 : ∀ i : grid0.Coords, EltTy.bits .f32 = 32 ∨ (Rect.block (s := S4x8192x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8192.size a ≤ S4x1x8192.size a
  hwx0_5 : ∀ i : grid0.Coords, EltTy.bits .f32 = 32 ∨ (Rect.block (s := S4x1x8192) S1x1x8192.size (cc0_transform_5 i) (hinb0_5 i)).WholeWords (EltTy.packing .f32)

variable [Facts₀]

abbrev win0_0 : Pipeline.Window sig grid0 :=
  Pipeline.Window.ofSpec (Memref.whole main_arg0) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S1x1x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4x8192x1 : Shape := ⟨3, ![4, 8192, 1]⟩
abbrev S_ : Shape := ⟨0, ![]⟩
abbrev S4x8192x8192 : Shape := ⟨3, ![4, 8192, 8192]⟩
abbrev S4x1x8192 : Shape := ⟨3, ![4, 1, 8192]⟩
abbrev S4x1 : Shape := ⟨2, ![4, 1]⟩
abbrev S4x1x1 : Shape := ⟨3, ![4, 1, 1]⟩
abbrev S4x8192 : Shape := ⟨2, ![4, 8192]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1, .f32⟩
  | .hbm, ⟨1, _⟩ => ⟨S4x8192x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x8192, .f32⟩
  | .hbm, ⟨17, _⟩ => ⟨S4x8192x8192, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x1x8192, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x1x8192, .f32⟩
  | .hbm, ⟨28, _⟩ => ⟨S4x8192x8192, .f32⟩
  | .hbm, ⟨29, _⟩ => ⟨S4x1x8192, .f32⟩
  | .hbm, ⟨30, _⟩ => ⟨S4x1x8192, .f32⟩
  | .hbm, ⟨31, _⟩ => ⟨S4x1x8192, .f32⟩
  | .hbm, ⟨32, _⟩ => ⟨S4x1x8192, .f32⟩
  | .hbm, ⟨33, _⟩ => ⟨S4x1x8192, .f32⟩
  | .hbm, ⟨34, _⟩ => ⟨S4x1x8192, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S_, .f32⟩
  | .hbm, ⟨41, _⟩ => ⟨S4x1, .f32⟩
  | .hbm, ⟨42, _⟩ => ⟨S_, .f32⟩
  | .hbm, ⟨43, _⟩ => ⟨S4x1, .f32⟩
  | .hbm, ⟨44, _⟩ => ⟨S4x1, .f32⟩
  | .hbm, ⟨45, _⟩ => ⟨S4x1x1, .f32⟩
  | .hbm, ⟨46, _⟩ => ⟨S4x8192x1, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x1, .f32⟩
  | .hbm, ⟨51, _⟩ => ⟨S4x1x1, .f32⟩
  | .hbm, ⟨52, _⟩ => ⟨S4x8192x1, .f32⟩
  | .hbm, ⟨53, _⟩ => ⟨S4x8192x1, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1, .f32⟩
  | .hbm, ⟨59, _⟩ => ⟨S_, .f32⟩
  | .hbm, ⟨60, _⟩ => ⟨S4x1, .f32⟩
  | .hbm, ⟨61, _⟩ => ⟨S_, .f32⟩
  | .hbm, ⟨62, _⟩ => ⟨S4x1, .f32⟩
  | .hbm, ⟨63, _⟩ => ⟨S4x1, .f32⟩
  | .hbm, ⟨64, _⟩ => ⟨S4x1x1, .f32⟩
  | .hbm, ⟨65, _⟩ => ⟨S4x8192x1, .f32⟩
  | .hbm, ⟨66, _⟩ => ⟨S4x8192x1, .f32⟩
  | .hbm, ⟨67, _⟩ => ⟨S4x8192x1, .f32⟩
  | .hbm, ⟨68, _⟩ => ⟨S_, .f32⟩
  | .hbm, ⟨69, _⟩ => ⟨S4x1, .f32⟩
  | .hbm, ⟨70, _⟩ => ⟨S4x1x1, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192, .f32⟩
  | .hbm, ⟨75, _⟩ => ⟨S4x8192x1, .f32⟩
  | .hbm, ⟨76, _⟩ => ⟨S4x8192, .f32⟩
  | _, _ => ⟨S4x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  bcast_S_S4x8192x1 : S_.BroadcastsInDim S4x8192x1 (![] : Fin 0 → Fin S4x8192x1.rank)
  transposes_S4x8192x1_S4x1x8192_0_2_1 : S4x8192x1.Transposes [0, 2, 1] S4x1x8192
  transposes_S4x8192x8192_S4x8192x8192_0_2_1 : S4x8192x8192.Transposes [0, 2, 1] S4x8192x8192
  transposes_S4x1x8192_S4x8192x1_0_2_1 : S4x1x8192.Transposes [0, 2, 1] S4x8192x1
  reducesTo_S4x8192x1_S4x1_d1 : S4x8192x1.ReducesTo [1] S4x1
  h_S_ : 0 < S_.numel
  bcast_S_S4x1 : S_.BroadcastsInDim S4x1 (![] : Fin 0 → Fin S4x1.rank)
  bcast_S4x1_S4x1x1_0_2 : S4x1.BroadcastsInDim S4x1x1 (![0, 2] : Fin 2 → Fin S4x1x1.rank)
  bcast_S4x1x1_S4x8192x1_0_1_2 : S4x1x1.BroadcastsInDim S4x8192x1 (![0, 1, 2] : Fin 3 → Fin S4x8192x1.rank)
  shapeCasts_S4x8192x1_S4x8192 : S4x8192x1.ShapeCasts S4x8192
  dot_S4x8192x1_S4x8192x1_S4x8192x8192_2_2_1_1_0_0_wf : DotDims.WF S4x8192x1 S4x8192x1 S4x8192x8192 [2] [2] [1] [1] [0] [0]
  dot_S4x1x8192_S4x8192x8192_S4x1x8192_2_1_1_2_0_0_wf : DotDims.WF S4x1x8192 S4x8192x8192 S4x1x8192 [2] [1] [1] [2] [0] [0]

variable [Facts₀]

def dot_S4x8192x1_S4x8192x1_S4x8192x8192_2_2_1_1_0_0 : DotDims S4x8192x1 S4x8192x1 S4x8192x8192 where
  lhsContracting := [2]
  rhsContracting := [2]
  lhsNonContracting := [1]
  rhsNonContracting := [1]
  lhsBatch := [0]
  rhsBatch := [0]
  wf := dot_S4x8192x1_S4x8192x1_S4x8192x8192_2_2_1_1_0_0_wf
def dot_S4x1x8192_S4x8192x8192_S4x1x8192_2_1_1_2_0_0 : DotDims S4x1x8192 S4x8192x8192 S4x1x8192 where
  lhsContracting := [2]
  rhsContracting := [1]
  lhsNonContracting := [1]
  rhsNonContracting := [2]
  lhsBatch := [0]
  rhsBatch := [0]
  wf := dot_S4x1x8192_S4x8192x8192_S4x1x8192_2_1_1_2_0_0_wf

class Facts : Prop extends Facts₀ where

variable [Facts]
-- ==== Proof.Spec.lean ====
/-
  The mathematics both programs compute, stated once over the extended reals.

  Per batch b the inputs give a column m1[b, ·] and a row t2[b, ·]; the implicit matrix is
  cell[b, n1, n2] = tanh (m1[b, n1] * t2[b, n2]). Two weighted sums of it are taken:
    S1[b, n1] = Σ over n2 of cell[b, n1, n2] * w2[b, n2]        (along a row of the matrix)
    S2[b, n2] = Σ over n1 of cell[b, n1, n2] * w1[b, n1]        (along a column of the matrix)
  Entries are addressed by a batch and a NATURAL position (zero past the end), so that a partial sum over the first k
  positions is a sum over `Finset.range k` and a further stretch of positions is added by `Finset.sum_range_add`:
  on the extended reals addition is commutative and associative, so any grouping of a sum into consecutive stretches
  gives the same total, with no finiteness assumption.
-/
import Idealize.ShloMosaic.PureOps.Ideal
import Idealize.ShloMosaic.Lib.ValueIdx

noncomputable section

open scoped BigOperators

namespace Cert.Spec

open Idealize.ShloMosaic Idealize.ShloMosaic.ValueIdx

/-- The shape of a batch of columns, [4, 8192, 1]. -/
abbrev Col : Shape := ⟨3, ![4, 8192, 1]⟩
/-- The shape of a batch of rows, [4, 1, 8192]. -/
abbrev Row : Shape := ⟨3, ![4, 1, 8192]⟩
/-- The shape of a result, [4, 8192]. -/
abbrev Flat : Shape := ⟨2, ![4, 8192]⟩

/-- Entry n of column b (zero past the end). -/
def colN (X : Col.Idx → EReal) (b : Fin 4) (n : ℕ) : EReal := if h : n < 8192 then X (ix3 b ⟨n, h⟩ 0) else 0
/-- Entry n of row b (zero past the end). -/
def rowN (Y : Row.Idx → EReal) (b : Fin 4) (n : ℕ) : EReal := if h : n < 8192 then Y (ix3 b 0 ⟨n, h⟩) else 0

theorem colN_fin (X : Col.Idx → EReal) (b : Fin 4) (n : Fin 8192) : colN X b n.val = X (ix3 b n 0) := by
  unfold colN; rw [dif_pos n.isLt]
theorem rowN_fin (Y : Row.Idx → EReal) (b : Fin 4) (n : Fin 8192) : rowN Y b n.val = Y (ix3 b 0 n) := by
  unfold rowN; rw [dif_pos n.isLt]
theorem colN_lt (X : Col.Idx → EReal) (b : Fin 4) (n : ℕ) (h : n < 8192) : colN X b n = X (ix3 b ⟨n, h⟩ 0) := by
  unfold colN; rw [dif_pos h]
theorem rowN_lt (Y : Row.Idx → EReal) (b : Fin 4) (n : ℕ) (h : n < 8192) : rowN Y b n = Y (ix3 b 0 ⟨n, h⟩) := by
  unfold rowN; rw [dif_pos h]

/-- The implicit matrix's entry (n1, n2) in batch b. -/
def cell (M1 : Col.Idx → EReal) (T2 : Row.Idx → EReal) (b : Fin 4) (n1 n2 : ℕ) : EReal :=
  Ideal.tanh (colN M1 b n1 * rowN T2 b n2)

/-- The addend of S1 at matrix entry (n1, n2). -/
def rowTerm (M1 : Col.Idx → EReal) (T2 W2 : Row.Idx → EReal) (b : Fin 4) (n1 n2 : ℕ) : EReal :=
  cell M1 T2 b n1 n2 * rowN W2 b n2
/-- The addend of S2 at matrix entry (n1, n2). -/
def colTerm (M1 W1 : Col.Idx → EReal) (T2 : Row.Idx → EReal) (b : Fin 4) (n1 n2 : ℕ) : EReal :=
  cell M1 T2 b n1 n2 * colN W1 b n1

/-- The part of S1[b, n1] over the first k columns. -/
def rowSum (M1 : Col.Idx → EReal) (T2 W2 : Row.Idx → EReal) (b : Fin 4) (n1 k : ℕ) : EReal :=
  ∑ n2 ∈ Finset.range k, rowTerm M1 T2 W2 b n1 n2
/-- The part of S2[b, n2] over the first k rows. -/
def colSum (M1 W1 : Col.Idx → EReal) (T2 : Row.Idx → EReal) (b : Fin 4) (n2 k : ℕ) : EReal :=
  ∑ n1 ∈ Finset.range k, colTerm M1 W1 T2 b n1 n2

/-- S1 as a batch of columns. -/
def S1 (M1 : Col.Idx → EReal) (T2 W2 : Row.Idx → EReal) : Col.Idx → EReal :=
  fun y => rowSum M1 T2 W2 (y 0) (y 1).val 8192
/-- S2 as a batch of rows. -/
def S2 (M1 W1 : Col.Idx → EReal) (T2 : Row.Idx → EReal) : Row.Idx → EReal :=
  fun y => colSum M1 W1 T2 (y 0) (y 2).val 8192

theorem rowSum_zero (M1 : Col.Idx → EReal) (T2 W2 : Row.Idx → EReal) (b : Fin 4) (n1 : ℕ) :
    rowSum M1 T2 W2 b n1 0 = 0 := by
  unfold rowSum; exact Finset.sum_range_zero _
theorem colSum_zero (M1 W1 : Col.Idx → EReal) (T2 : Row.Idx → EReal) (b : Fin 4) (n2 : ℕ) :
    colSum M1 W1 T2 b n2 0 = 0 := by
  unfold colSum; exact Finset.sum_range_zero _

/-- A further stretch of w columns adds its own sum. -/
theorem rowSum_add (M1 : Col.Idx → EReal) (T2 W2 : Row.Idx → EReal) (b : Fin 4) (n1 k w : ℕ) :
    rowSum M1 T2 W2 b n1 (k + w) = rowSum M1 T2 W2 b n1 k + ∑ q : Fin w, rowTerm M1 T2 W2 b n1 (k + q.val) := by
  unfold rowSum
  rw [Finset.sum_range_add, Fin.sum_univ_eq_sum_range (fun q => rowTerm M1 T2 W2 b n1 (k + q)) w]
/-- A further stretch of w rows adds its own sum. -/
theorem colSum_add (M1 W1 : Col.Idx → EReal) (T2 : Row.Idx → EReal) (b : Fin 4) (n2 k w : ℕ) :
    colSum M1 W1 T2 b n2 (k + w) = colSum M1 W1 T2 b n2 k + ∑ r : Fin w, colTerm M1 W1 T2 b (k + r.val) n2 := by
  unfold colSum
  rw [Finset.sum_range_add, Fin.sum_univ_eq_sum_range (fun r => colTerm M1 W1 T2 b (k + r) n2) w]

/-- The whole sums over the 8192 positions, as sums over `Fin 8192`. -/
theorem rowSum_full (M1 : Col.Idx → EReal) (T2 W2 : Row.Idx → EReal) (b : Fin 4) (n1 : ℕ) :
    rowSum M1 T2 W2 b n1 8192 = ∑ n2 : Fin 8192, rowTerm M1 T2 W2 b n1 n2.val := by
  unfold rowSum; exact (Fin.sum_univ_eq_sum_range (fun n2 => rowTerm M1 T2 W2 b n1 n2) 8192).symm
theorem colSum_full (M1 W1 : Col.Idx → EReal) (T2 : Row.Idx → EReal) (b : Fin 4) (n2 : ℕ) :
    colSum M1 W1 T2 b n2 8192 = ∑ n1 : Fin 8192, colTerm M1 W1 T2 b n1.val n2 := by
  unfold colSum; exact (Fin.sum_univ_eq_sum_range (fun n1 => colTerm M1 W1 T2 b n1 n2) 8192).symm

/-- A batch of columns scaled and shifted by two scalars. -/
def affCol (X : Col.Idx → EReal) (w b : EReal) : Col.Idx → EReal := fun y => X y * w + b
/-- A batch of columns laid as rows, then scaled and shifted by two scalars. -/
def affRowT (X : Col.Idx → EReal) (w b : EReal) : Row.Idx → EReal := fun y => X (ix3 (y 0) (y 2) 0) * w + b

/-- The grid point number t = 32 b + 4 i + j read back as its batch b, row block i and column block j. -/
def bOf (t : ℕ) : Fin 4 := ⟨t / 32 % 4, Nat.mod_lt _ (by decide)⟩
def iOf (t : ℕ) : ℕ := t / 4 % 8
def jOf (t : ℕ) : ℕ := t % 4

/-- The logits that enter the first softmax: tanh (w1-column + S1), scaled and shifted. -/
def logits1 (M1 W1 : Col.Idx → EReal) (T2 W2 : Row.Idx → EReal) (w b : EReal) : Col.Idx → EReal :=
  fun y => Ideal.tanh (W1 y + S1 M1 T2 W2 y) * w + b
/-- The logits that enter the second softmax, laid as a column: tanh (w2-row + S2), scaled and shifted. -/
def logits2 (M1 W1 : Col.Idx → EReal) (T2 W2 : Row.Idx → EReal) (w b : EReal) : Col.Idx → EReal :=
  fun y => Ideal.tanh (W2 (ix3 (y 0) 0 (y 1)) + S2 M1 W1 T2 (ix3 (y 0) 0 (y 1))) * w + b

end Cert.Spec

end
-- ==== Proof.Tail.lean ====
/-
  The closing stretch that both programs share, as one function of a column of logits X and a column M.

  Per batch b, with mx[b] the larger of -∞ and the maximum of X[b, ·] and s[b] the sum over the column of
  exp (X[b, n] − mx[b]), the result at (b, n) is exp (X[b, n] − mx[b]) / s[b] * M[b, n]: a softmax along the column,
  weighted entrywise by M and laid out without the trailing unit axis. It is written here with the very host
  operations, in the very order, in which the two programs apply them, so that each program's closing stretch is this
  function of its own logits by unfolding alone.
-/
import proofs.«122485_j36644660969672_1_alg».proof.KernelIdeal
import proofs.«122485_j36644660969672_1_alg».proof.Proof.Gen.KernelIdeal
import proofs.«122485_j36644660969672_1_alg».proof.Proof.Gen.ReferenceIdeal.Read
import proofs.«122485_j36644660969672_1_alg».proof.Proof.Spec

-- the long axis has 8192 positions: comparing two spellings of one term walks literals of that size
set_option maxRecDepth 65536

noncomputable section

namespace Cert.Tail

open Idealize.ShloMosaic

/-- The softmax of the column X along its long axis, times M entrywise, flattened to [4, 8192]:
    mx = max (-∞, max over the column of X), E = exp (X − mx), s = 0 + sum over the column of E, result = E / s * M. -/
def attend (X M : Cert.Spec.Col.Idx → EReal) : Cert.Spec.Flat.Idx → EReal :=
  shapeCast Cert.KernelIdeal.S4x8192
    (mulf (F := Ideal) (s := Cert.KernelIdeal.S4x8192x1) (φ := .f32)
      (Host.divf (F := Ideal) (s := Cert.KernelIdeal.S4x8192x1) (φ := .f32)
        (Host.exp (F := Ideal) (s := Cert.KernelIdeal.S4x8192x1) (φ := .f32)
          (subf (F := Ideal) (s := Cert.KernelIdeal.S4x8192x1) (φ := .f32) X
            (broadcastInDim Cert.KernelIdeal.S4x8192x1 ![0, 1, 2] Cert.KernelIdeal.Gen.bcast_S4x1x1_S4x8192x1_0_1_2
              (broadcastInDim Cert.KernelIdeal.S4x1x1 ![0, 2] Cert.KernelIdeal.Gen.bcast_S4x1_S4x1x1_0_2
                (maximumf (F := Ideal) (s := Cert.KernelIdeal.S4x1) (φ := .f32)
                  (broadcastInDim Cert.KernelIdeal.S4x1 ![] Cert.KernelIdeal.Gen.bcast_S_S4x1
                    (constant (F := Ideal) Cert.KernelIdeal.S_ .f32 0xFF800000#32))
                  (Host.reduce (FloatOps.maximumf (F := Ideal) (φ := .f32)) X (constant (F := Ideal) Cert.KernelIdeal.S_ .f32 0xFF800000#32)
                    Cert.KernelIdeal.Gen.reducesTo_S4x8192x1_S4x1_d1 Cert.KernelIdeal.Gen.h_S_))))))
        (broadcastInDim Cert.KernelIdeal.S4x8192x1 ![0, 1, 2] Cert.KernelIdeal.Gen.bcast_S4x1x1_S4x8192x1_0_1_2
          (broadcastInDim Cert.KernelIdeal.S4x1x1 ![0, 2] Cert.KernelIdeal.Gen.bcast_S4x1_S4x1x1_0_2
            (Host.reduceAdd (F := Ideal)
              (Host.exp (F := Ideal) (s := Cert.KernelIdeal.S4x8192x1) (φ := .f32)
                (subf (F := Ideal) (s := Cert.KernelIdeal.S4x8192x1) (φ := .f32) X
                  (broadcastInDim Cert.KernelIdeal.S4x8192x1 ![0, 1, 2] Cert.KernelIdeal.Gen.bcast_S4x1x1_S4x8192x1_0_1_2
                    (broadcastInDim Cert.KernelIdeal.S4x1x1 ![0, 2] Cert.KernelIdeal.Gen.bcast_S4x1_S4x1x1_0_2
                      (maximumf (F := Ideal) (s := Cert.KernelIdeal.S4x1) (φ := .f32)
                        (broadcastInDim Cert.KernelIdeal.S4x1 ![] Cert.KernelIdeal.Gen.bcast_S_S4x1
                          (constant (F := Ideal) Cert.KernelIdeal.S_ .f32 0xFF800000#32))
                        (Host.reduce (FloatOps.maximumf (F := Ideal) (φ := .f32)) X (constant (F := Ideal) Cert.KernelIdeal.S_ .f32 0xFF800000#32)
                          Cert.KernelIdeal.Gen.reducesTo_S4x8192x1_S4x1_d1 Cert.KernelIdeal.Gen.h_S_))))))
              (constant (F := Ideal) Cert.KernelIdeal.S_ .f32 0x00000000#32)
              Cert.KernelIdeal.Gen.reducesTo_S4x8192x1_S4x1_d1 Cert.KernelIdeal.Gen.h_S_))))
      M)
    Cert.KernelIdeal.Gen.shapeCasts_S4x8192x1_S4x8192

open Cert.ReferenceIdeal.Read in
/-- The reference program's first result is the shared closing stretch over its first logits and its first input. -/
theorem ref_out0 (x0 x1 : (⟨Cert.ReferenceIdeal.S4x8192x1, .f32⟩ : BufTy).Contents (Elt Ideal))
    (x2 x3 x4 x5 x6 x7 x8 x9 : (⟨Cert.ReferenceIdeal.S_, .f32⟩ : BufTy).Contents (Elt Ideal)) :
    Cert.ReferenceIdeal.Read.val_main_v56 x0 x1 x2 x3 x4 x5 x6 x7 x8 x9
      = attend (Cert.ReferenceIdeal.Read.val_main_v27 x0 x1 x2 x3 x4 x5 x6 x7 x8 x9) x0 := by
  unfold val_main_v56 val_main_v55 val_main_v38 val_main_v37 val_main_v36 val_main_v35 val_main_cst_1 val_main_v34
    val_main_v33 val_main_v32 val_main_v31 val_main_v30 val_main_v29 val_main_cst_0 val_main_v28 val_main_cst attend
  rfl

open Cert.ReferenceIdeal.Read in
/-- The reference program's second result is the shared closing stretch over its second logits and its second input. -/
theorem ref_out1 (x0 x1 : (⟨Cert.ReferenceIdeal.S4x8192x1, .f32⟩ : BufTy).Contents (Elt Ideal))
    (x2 x3 x4 x5 x6 x7 x10 x11 : (⟨Cert.ReferenceIdeal.S_, .f32⟩ : BufTy).Contents (Elt Ideal)) :
    Cert.ReferenceIdeal.Read.val_main_v58 x0 x1 x2 x3 x4 x5 x6 x7 x10 x11
      = attend (Cert.ReferenceIdeal.Read.val_main_v43 x0 x1 x2 x3 x4 x5 x6 x7 x10 x11) x1 := by
  unfold val_main_v58 val_main_v57 val_main_v54 val_main_v53 val_main_v52 val_main_v51 val_main_cst_4 val_main_v50
    val_main_v49 val_main_v48 val_main_v47 val_main_v46 val_main_v45 val_main_cst_3 val_main_v44 val_main_cst_2 attend
  rfl

end Cert.Tail

end
-- ==== Proof.RefLogits.lean ====
/-
  The reference program's two softmax inputs, read at an index, are the logits of the shared specification.

  From m1 = x0 and m2 = x1 the reference forms the matrix tanh (m1[b, i] * (m2[b, j] * w0 + b0)) as a contraction
  over an axis of size one (a sum with a single term), then contracts it with the row (m2 * w2 + b2) along its second
  axis and with the row (m1 * w1 + b1) along its first. A sum over the 8192 positions is the specification's partial sum
  taken over all of them; the reference writes each addend as weight * entry where the specification writes
  entry * weight, and multiplication on the extended reals is commutative. Transposes only rename coordinates.
-/
import proofs.«122485_j36644660969672_1_alg».proof.Proof.Gen.ReferenceIdeal.Read
import proofs.«122485_j36644660969672_1_alg».proof.Proof.Spec
import Idealize.ShloMosaic.Lib.ValueIdx
import Idealize.ShloMosaic.PureOps.Ideal.Laws

noncomputable section

open scoped BigOperators

namespace Cert.ReferenceIdeal.RefLogits

open Cert.ReferenceIdeal Idealize.ShloMosaic Idealize.ShloMosaic.ValueIdx Cert.Spec

/-! ## The composed index maps of the reference, at an index given by its coordinates -/

/-- The left operand of the outer product is read at row i of batch b. -/
theorem lidx4 (b : Fin 4) (i j : Fin 8192) (k : Fin 1) : Read.lidx_main_v4 (ix3 b i j) k = ix3 b i 0 :=
  funext fun a => by
    match a with
    | ⟨0, _⟩ => rfl
    | ⟨1, _⟩ => rfl
    | ⟨2, _⟩ => exact Fin.ext (Nat.lt_one_iff.mp k.isLt)

/-- The right operand of the outer product is read at row j of batch b. -/
theorem ridx4 (b : Fin 4) (i j : Fin 8192) (k : Fin 1) : Read.ridx_main_v4 (ix3 b i j) k = ix3 b j 0 :=
  funext fun a => by
    match a with
    | ⟨0, _⟩ => rfl
    | ⟨1, _⟩ => rfl
    | ⟨2, _⟩ => exact Fin.ext (Nat.lt_one_iff.mp k.isLt)

/-- A column laid as a row: position (b, z, n) of the row is position (b, n, z) of the column. -/
theorem idx10 (b : Fin 4) (z : Fin 1) (n : Fin 8192) : Read.idx_main_v10 (ix3 b z n) = ix3 b n z :=
  funext fun a => by
    match a with
    | ⟨0, _⟩ => rfl
    | ⟨1, _⟩ => rfl
    | ⟨2, _⟩ => rfl

theorem idx15 (b : Fin 4) (z : Fin 1) (n : Fin 8192) : Read.idx_main_v15 (ix3 b z n) = ix3 b n z :=
  funext fun a => by
    match a with
    | ⟨0, _⟩ => rfl
    | ⟨1, _⟩ => rfl
    | ⟨2, _⟩ => rfl

/-- The transposed matrix at (b, k, i) is the matrix at (b, i, k). -/
theorem idx16 (b : Fin 4) (k i : Fin 8192) : Read.idx_main_v16 (ix3 b k i) = ix3 b i k :=
  funext fun a => by
    match a with
    | ⟨0, _⟩ => rfl
    | ⟨1, _⟩ => rfl
    | ⟨2, _⟩ => rfl

theorem lidx17 (b : Fin 4) (z : Fin 1) (i k : Fin 8192) : Read.lidx_main_v17 (ix3 b z i) k = ix3 b z k :=
  funext fun a => by
    match a with
    | ⟨0, _⟩ => rfl
    | ⟨1, _⟩ => rfl
    | ⟨2, _⟩ => rfl

theorem ridx17 (b : Fin 4) (z : Fin 1) (i k : Fin 8192) : Read.ridx_main_v17 (ix3 b z i) k = ix3 b k i :=
  funext fun a => by
    match a with
    | ⟨0, _⟩ => rfl
    | ⟨1, _⟩ => rfl
    | ⟨2, _⟩ => rfl

theorem lidx20 (b : Fin 4) (z : Fin 1) (j k : Fin 8192) : Read.lidx_main_v20 (ix3 b z j) k = ix3 b z k :=
  funext fun a => by
    match a with
    | ⟨0, _⟩ => rfl
    | ⟨1, _⟩ => rfl
    | ⟨2, _⟩ => rfl

theorem ridx20 (b : Fin 4) (z : Fin 1) (j k : Fin 8192) : Read.ridx_main_v20 (ix3 b z j) k = ix3 b k j :=
  funext fun a => by
    match a with
    | ⟨0, _⟩ => rfl
    | ⟨1, _⟩ => rfl
    | ⟨2, _⟩ => rfl

/-- A row laid back as a column: position (b, n, z) of the column is position (b, z, n) of the row. -/
theorem idx23 (b : Fin 4) (n : Fin 8192) (z : Fin 1) : Read.idx_main_v23 (ix3 b n z) = ix3 b z n :=
  funext fun a => by
    match a with
    | ⟨0, _⟩ => rfl
    | ⟨1, _⟩ => rfl
    | ⟨2, _⟩ => rfl

theorem idx39 (b : Fin 4) (n : Fin 8192) (z : Fin 1) : Read.idx_main_v39 (ix3 b n z) = ix3 b z n :=
  funext fun a => by
    match a with
    | ⟨0, _⟩ => rfl
    | ⟨1, _⟩ => rfl
    | ⟨2, _⟩ => rfl

/-! ## The three scaled and shifted inputs -/

/-- The second input scaled by w0 and shifted by b0. -/
theorem v3_at (x1 : (⟨S4x8192x1, .f32⟩ : BufTy).Contents (Elt Ideal)) (x2 x3 : (⟨S_, .f32⟩ : BufTy).Contents (Elt Ideal))
    (y : S4x8192x1.Idx) :
    Read.val_main_v3 (F := Ideal) x1 x2 x3 y = x1 y * x2 ix0 + x3 ix0 := by
  rw [Read.val_main_v3_apply, Read.val_main_v1_apply, Read.val_main_v0_apply, Read.val_main_v2_apply]
  rfl

/-- The first input scaled by w1 and shifted by b1. -/
theorem v9_at (x0 : (⟨S4x8192x1, .f32⟩ : BufTy).Contents (Elt Ideal)) (x4 x5 : (⟨S_, .f32⟩ : BufTy).Contents (Elt Ideal))
    (y : S4x8192x1.Idx) :
    Read.val_main_v9 (F := Ideal) x0 x4 x5 y = affCol x0 (x4 ix0) (x5 ix0) y := by
  rw [Read.val_main_v9_apply, Read.val_main_v7_apply, Read.val_main_v6_apply, Read.val_main_v8_apply]
  rfl

/-- The second input scaled by w2 and shifted by b2. -/
theorem v14_at (x1 : (⟨S4x8192x1, .f32⟩ : BufTy).Contents (Elt Ideal)) (x6 x7 : (⟨S_, .f32⟩ : BufTy).Contents (Elt Ideal))
    (y : S4x8192x1.Idx) :
    Read.val_main_v14 (F := Ideal) x1 x6 x7 y = x1 y * x6 ix0 + x7 ix0 := by
  rw [Read.val_main_v14_apply, Read.val_main_v12_apply, Read.val_main_v11_apply, Read.val_main_v13_apply]
  rfl

/-- The w1-column laid as a row. -/
theorem v10_at (x0 : (⟨S4x8192x1, .f32⟩ : BufTy).Contents (Elt Ideal)) (x4 x5 : (⟨S_, .f32⟩ : BufTy).Contents (Elt Ideal))
    (b : Fin 4) (z : Fin 1) (n : Fin 8192) :
    Read.val_main_v10 (F := Ideal) x0 x4 x5 (ix3 b z n) = affCol x0 (x4 ix0) (x5 ix0) (ix3 b n z) := by
  rw [Read.val_main_v10_apply, idx10, v9_at]

/-- The w2-column laid as a row is the w2-row of the specification. -/
theorem v15_at (x1 : (⟨S4x8192x1, .f32⟩ : BufTy).Contents (Elt Ideal)) (x6 x7 : (⟨S_, .f32⟩ : BufTy).Contents (Elt Ideal))
    (b : Fin 4) (n : Fin 8192) :
    Read.val_main_v15 (F := Ideal) x1 x6 x7 (ix3 b 0 n) = affRowT x1 (x6 ix0) (x7 ix0) (ix3 b 0 n) := by
  rw [Read.val_main_v15_apply, idx15, v14_at]
  rfl

/-! ## The matrix and its two weighted sums -/

/-- The matrix entry (i, j) of batch b: the size-one contraction is the single product m1[b, i] * t2[b, j]. -/
theorem v5_entry (x0 x1 : (⟨S4x8192x1, .f32⟩ : BufTy).Contents (Elt Ideal)) (x2 x3 : (⟨S_, .f32⟩ : BufTy).Contents (Elt Ideal))
    (b : Fin 4) (i j : Fin 8192) :
    Read.val_main_v5 (F := Ideal) x0 x1 x2 x3 (ix3 b i j) = cell x0 (affRowT x1 (x2 ix0) (x3 ix0)) b i.val j.val := by
  rw [Read.val_main_v5_apply, Read.val_main_v4_apply, Fin.sum_univ_one, v3_at, lidx4, ridx4]
  unfold cell
  rw [colN_fin, rowN_fin]
  rfl

/-- The contraction of the w2-row with the transposed matrix is the row sum S1 over all 8192 columns. -/
theorem v17_entry (x0 x1 : (⟨S4x8192x1, .f32⟩ : BufTy).Contents (Elt Ideal)) (x2 x3 x6 x7 : (⟨S_, .f32⟩ : BufTy).Contents (Elt Ideal))
    (b : Fin 4) (i : Fin 8192) :
    Read.val_main_v17 (F := Ideal) x0 x1 x2 x3 x6 x7 (ix3 b 0 i)
      = rowSum x0 (affRowT x1 (x2 ix0) (x3 ix0)) (affRowT x1 (x6 ix0) (x7 ix0)) b i.val 8192 := by
  rw [Read.val_main_v17_apply, rowSum_full]
  refine Finset.sum_congr rfl fun k _ => ?_
  rw [lidx17, ridx17, v15_at, Read.val_main_v16_apply, idx16, v5_entry]
  unfold rowTerm
  rw [rowN_fin]
  exact mul_comm _ _

/-- The contraction of the w1-row with the matrix is the column sum S2 over all 8192 rows. -/
theorem v20_entry (x0 x1 : (⟨S4x8192x1, .f32⟩ : BufTy).Contents (Elt Ideal)) (x2 x3 x4 x5 : (⟨S_, .f32⟩ : BufTy).Contents (Elt Ideal))
    (b : Fin 4) (j : Fin 8192) :
    Read.val_main_v20 (F := Ideal) x0 x1 x2 x3 x4 x5 (ix3 b 0 j)
      = colSum x0 (affCol x0 (x4 ix0) (x5 ix0)) (affRowT x1 (x2 ix0) (x3 ix0)) b j.val 8192 := by
  rw [Read.val_main_v20_apply, colSum_full]
  refine Finset.sum_congr rfl fun k _ => ?_
  rw [lidx20, ridx20, v10_at, v5_entry]
  unfold colTerm
  rw [colN_fin]
  exact mul_comm _ _

/-! ## The two softmax inputs -/

/-- The first softmax input is the specification's first logits. -/
theorem logits1_eq (x0 x1 : (⟨Cert.ReferenceIdeal.S4x8192x1, .f32⟩ : BufTy).Contents (Elt Ideal)) (x2 x3 x4 x5 x6 x7 x8 x9 : (⟨Cert.ReferenceIdeal.S_, .f32⟩ : BufTy).Contents (Elt Ideal)) :
    Cert.ReferenceIdeal.Read.val_main_v27 x0 x1 x2 x3 x4 x5 x6 x7 x8 x9
      = Cert.Spec.logits1 x0 (Cert.Spec.affCol x0 (x4 ix0) (x5 ix0)) (Cert.Spec.affRowT x1 (x2 ix0) (x3 ix0)) (Cert.Spec.affRowT x1 (x6 ix0) (x7 ix0)) (x8 ix0) (x9 ix0) := by
  funext y
  obtain ⟨b, n, z, rfl⟩ : ∃ b n z, y = ix3 b n z := ⟨y 0, y 1, y 2, eq_ix3 y⟩
  obtain rfl : z = 0 := Subsingleton.elim _ _
  rw [Read.val_main_v27_apply, Read.val_main_v25_apply, Read.val_main_v26_apply, Read.val_main_v24_apply,
    Read.val_main_v23_apply, idx23, Read.val_main_v19_apply, Read.val_main_v18_apply, v10_at, v17_entry]
  rfl

/-- The second softmax input is the specification's second logits. -/
theorem logits2_eq (x0 x1 : (⟨Cert.ReferenceIdeal.S4x8192x1, .f32⟩ : BufTy).Contents (Elt Ideal)) (x2 x3 x4 x5 x6 x7 x10 x11 : (⟨Cert.ReferenceIdeal.S_, .f32⟩ : BufTy).Contents (Elt Ideal)) :
    Cert.ReferenceIdeal.Read.val_main_v43 x0 x1 x2 x3 x4 x5 x6 x7 x10 x11
      = Cert.Spec.logits2 x0 (Cert.Spec.affCol x0 (x4 ix0) (x5 ix0)) (Cert.Spec.affRowT x1 (x2 ix0) (x3 ix0)) (Cert.Spec.affRowT x1 (x6 ix0) (x7 ix0)) (x10 ix0) (x11 ix0) := by
  funext y
  obtain ⟨b, n, z, rfl⟩ : ∃ b n z, y = ix3 b n z := ⟨y 0, y 1, y 2, eq_ix3 y⟩
  obtain rfl : z = 0 := Subsingleton.elim _ _
  rw [Read.val_main_v43_apply, Read.val_main_v41_apply, Read.val_main_v42_apply, Read.val_main_v40_apply,
    Read.val_main_v39_apply, idx39, Read.val_main_v22_apply, Read.val_main_v21_apply, v15_at, v20_entry]
  rfl

end Cert.ReferenceIdeal.RefLogits

end
-- ==== Proof.Blocks.lean ====
/-
  What the region reads, as entries of its arrays.

  The grid has 128 points; point t = 32 b + 4 i + j stands for batch b, row block i (1024 positions of a column) and
  column block j (2048 positions of a row). The first two windows hold, at point t, positions 1024 i … 1024 i + 1023 of
  column b of their arrays; the next two hold positions 2048 j … 2048 j + 2047 of row b of theirs. Each statement below
  addresses the array by a batch and a natural position, so that a block's entry r is the array's entry at the block's
  offset plus r.

  The first array is an argument as launched. The other three are computed before the region from the arguments:
  a batch of columns times a scalar plus a scalar, and (twice, under two pairs of scalars) a batch of columns laid as
  rows, times a scalar plus a scalar. Entry by entry these are the affine images `affCol` and `affRowT`.
-/
import proofs.«122485_j36644660969672_1_alg».proof.Proof.Gen.KernelIdeal.Frame
import proofs.«122485_j36644660969672_1_alg».proof.Proof.Spec
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.ShloMosaic.ValueIdx
open Cert.KernelIdeal Cert.KernelIdeal.Gen

variable (m : (ℓ : Loc nD τ sig) → Buf (Elt Ideal) ℓ)

/-- The four arrays the input windows read, as the region finds them. -/
abbrev arrM1 (c : Dev nD) : Cert.Spec.Col.Idx → EReal := V m c main_arg0
abbrev arrW1 (c : Dev nD) : Cert.Spec.Col.Idx → EReal := V m c main_v3
abbrev arrT2 (c : Dev nD) : Cert.Spec.Row.Idx → EReal := V m c main_v8
abbrev arrW2 (c : Dev nD) : Cert.Spec.Row.Idx → EReal := V m c main_v12

/-! ## The blocks -/

/-- Window 0's block index at point t: batch t / 32, row block t / 4 mod 8, and 0 along the unit axis. -/
theorem idx0 : ∀ t : Fin grid0.N, win0_0.index t 0 = t.val / 32 ∧ win0_0.index t 1 = t.val / 4 % 8 ∧ win0_0.index t 2 = 0 := by decide +kernel

/-- Entry r of window 0's block at point t is position 1024 i + r of column b of the first array. -/
theorem blk0 (c : Dev nD) (t : Fin cfg0.N) (r : Fin 1024) :
    (iblk m c 0 t : Vec Ideal S1x1024x1 .f32) (ix3 0 r 0)
      = Cert.Spec.colN (arrM1 m c) (Cert.Spec.bOf t.val) (Cert.Spec.iOf t.val * 1024 + r.val) := by
  have ht : t.val < 128 := lt_of_lt_of_eq t.isLt N_0
  have hn : Cert.Spec.iOf t.val * 1024 + r.val < 8192 := by unfold Cert.Spec.iOf; omega
  rw [Cert.Spec.colN_lt _ _ _ hn]
  unfold iblk
  rw [View.read_apply]
  show V m c main_arg0 _ = V m c main_arg0 _
  congr 1
  funext a
  apply Fin.ext
  match a with
  | ⟨0, _⟩ =>
    show win0_0.index t 0 * 1 + 1 * 0 = t.val / 32 % 4
    rw [(idx0 t).1]; omega
  | ⟨1, _⟩ =>
    show win0_0.index t 1 * 1024 + 1 * r.val = Cert.Spec.iOf t.val * 1024 + r.val
    rw [(idx0 t).2.1]; unfold Cert.Spec.iOf; omega
  | ⟨2, _⟩ =>
    show win0_0.index t 2 * 1 + 1 * 0 = 0
    rw [(idx0 t).2.2]

/-- Window 1's block index at point t: batch t / 32, row block t / 4 mod 8, and 0 along the unit axis. -/
theorem idx1 : ∀ t : Fin grid0.N, win0_1.index t 0 = t.val / 32 ∧ win0_1.index t 1 = t.val / 4 % 8 ∧ win0_1.index t 2 = 0 := by decide +kernel

/-- Entry r of window 1's block at point t is position 1024 i + r of column b of the second array. -/
theorem blk1 (c : Dev nD) (t : Fin cfg0.N) (r : Fin 1024) :
    (iblk m c 1 t : Vec Ideal S1x1024x1 .f32) (ix3 0 r 0)
      = Cert.Spec.colN (arrW1 m c) (Cert.Spec.bOf t.val) (Cert.Spec.iOf t.val * 1024 + r.val) := by
  have ht : t.val < 128 := lt_of_lt_of_eq t.isLt N_0
  have hn : Cert.Spec.iOf t.val * 1024 + r.val < 8192 := by unfold Cert.Spec.iOf; omega
  rw [Cert.Spec.colN_lt _ _ _ hn]
  unfold iblk
  rw [View.read_apply]
  show V m c main_v3 _ = V m c main_v3 _
  congr 1
  funext a
  apply Fin.ext
  match a with
  | ⟨0, _⟩ =>
    show win0_1.index t 0 * 1 + 1 * 0 = t.val / 32 % 4
    rw [(idx1 t).1]; omega
  | ⟨1, _⟩ =>
    show win0_1.index t 1 * 1024 + 1 * r.val = Cert.Spec.iOf t.val * 1024 + r.val
    rw [(idx1 t).2.1]; unfold Cert.Spec.iOf; omega
  | ⟨2, _⟩ =>
    show win0_1.index t 2 * 1 + 1 * 0 = 0
    rw [(idx1 t).2.2]

/-- Window 2's block index at point t: batch t / 32, 0 along the unit axis, and column block t mod 4. -/
theorem idx2 : ∀ t : Fin grid0.N, win0_2.index t 0 = t.val / 32 ∧ win0_2.index t 1 = 0 ∧ win0_2.index t 2 = t.val % 4 := by decide +kernel

/-- Entry q of window 2's block at point t is position 2048 j + q of row b of the third array. -/
theorem blk2 (c : Dev nD) (t : Fin cfg0.N) (q : Fin 2048) :
    (iblk m c 2 t : Vec Ideal S1x1x2048 .f32) (ix3 0 0 q)
      = Cert.Spec.rowN (arrT2 m c) (Cert.Spec.bOf t.val) (Cert.Spec.jOf t.val * 2048 + q.val) := by
  have ht : t.val < 128 := lt_of_lt_of_eq t.isLt N_0
  have hn : Cert.Spec.jOf t.val * 2048 + q.val < 8192 := by unfold Cert.Spec.jOf; omega
  rw [Cert.Spec.rowN_lt _ _ _ hn]
  unfold iblk
  rw [View.read_apply]
  show V m c main_v8 _ = V m c main_v8 _
  congr 1
  funext a
  apply Fin.ext
  match a with
  | ⟨0, _⟩ =>
    show win0_2.index t 0 * 1 + 1 * 0 = t.val / 32 % 4
    rw [(idx2 t).1]; omega
  | ⟨1, _⟩ =>
    show win0_2.index t 1 * 1 + 1 * 0 = 0
    rw [(idx2 t).2.1]
  | ⟨2, _⟩ =>
    show win0_2.index t 2 * 2048 + 1 * q.val = Cert.Spec.jOf t.val * 2048 + q.val
    rw [(idx2 t).2.2]; unfold Cert.Spec.jOf; omega

/-- Window 3's block index at point t: batch t / 32, 0 along the unit axis, and column block t mod 4. -/
theorem idx3 : ∀ t : Fin grid0.N, win0_3.index t 0 = t.val / 32 ∧ win0_3.index t 1 = 0 ∧ win0_3.index t 2 = t.val % 4 := by decide +kernel

/-- Entry q of window 3's block at point t is position 2048 j + q of row b of the fourth array. -/
theorem blk3 (c : Dev nD) (t : Fin cfg0.N) (q : Fin 2048) :
    (iblk m c 3 t : Vec Ideal S1x1x2048 .f32) (ix3 0 0 q)
      = Cert.Spec.rowN (arrW2 m c) (Cert.Spec.bOf t.val) (Cert.Spec.jOf t.val * 2048 + q.val) := by
  have ht : t.val < 128 := lt_of_lt_of_eq t.isLt N_0
  have hn : Cert.Spec.jOf t.val * 2048 + q.val < 8192 := by unfold Cert.Spec.jOf; omega
  rw [Cert.Spec.rowN_lt _ _ _ hn]
  unfold iblk
  rw [View.read_apply]
  show V m c main_v12 _ = V m c main_v12 _
  congr 1
  funext a
  apply Fin.ext
  match a with
  | ⟨0, _⟩ =>
    show win0_3.index t 0 * 1 + 1 * 0 = t.val / 32 % 4
    rw [(idx3 t).1]; omega
  | ⟨1, _⟩ =>
    show win0_3.index t 1 * 1 + 1 * 0 = 0
    rw [(idx3 t).2.1]
  | ⟨2, _⟩ =>
    show win0_3.index t 2 * 2048 + 1 * q.val = Cert.Spec.jOf t.val * 2048 + q.val
    rw [(idx3 t).2.2]; unfold Cert.Spec.jOf; omega

/-! ## The arrays the host prepares -/

/-- The batch of columns the region reads first is an argument no host operation before it writes. -/
theorem arrM1_eq (c : Dev nD) : arrM1 m c = m ((c.tc : Thread nD τ).loc main_arg0) := V_main_arg0 m c

/-- A scalar spread over a batch of columns has the scalar at every entry. -/
theorem spread_col (w : FVec Ideal S_ .f32) (y : S4x8192x1.Idx) :
    (broadcastInDim S4x8192x1 ![] bcast_S_S4x8192x1 w : FVec Ideal S4x8192x1 .f32) y = w ix0 :=
  broadcastInDim_apply _ _ w y ix0 (fun a => a.elim0)

/-- A scalar spread over a batch of rows has the scalar at every entry. -/
theorem spread_row (w : FVec Ideal S_ .f32) (y : S4x1x8192.Idx) :
    (broadcastInDim S4x1x8192 ![] bcast_S_S4x1x8192 w : FVec Ideal S4x1x8192 .f32) y = w ix0 :=
  broadcastInDim_apply _ _ w y ix0 (fun a => a.elim0)

/-- Laying a batch of columns as rows: entry (b, 0, n) of the result is entry (b, n, 0) of the source. -/
theorem transpose_col (X : FVec Ideal S4x8192x1 .f32) (y : S4x1x8192.Idx) :
    (transpose S4x1x8192 [0, 2, 1] X transposes_S4x8192x1_S4x1x8192_0_2_1 : FVec Ideal S4x1x8192 .f32) y
      = X (ix3 (y 0) (y 2) 0) := by
  refine transpose_apply _ X _ y (ix3 (y 0) (y 2) 0) ?_
  intro b
  match b with
  | ⟨0, _⟩ => rfl
  | ⟨1, _⟩ =>
    have h1 : (y 1).val < 1 := (y 1).isLt
    show (0 : ℕ) = (y 1).val
    omega
  | ⟨2, _⟩ => rfl

/-- Columns times a spread scalar plus a spread scalar: entry by entry the affine image. -/
theorem affCol_ops (X : FVec Ideal S4x8192x1 .f32) (w b : FVec Ideal S_ .f32) :
    (addf (mulf X (broadcastInDim S4x8192x1 ![] bcast_S_S4x8192x1 w)) (broadcastInDim S4x8192x1 ![] bcast_S_S4x8192x1 b)
        : FVec Ideal S4x8192x1 .f32)
      = Cert.Spec.affCol X (w ix0) (b ix0) := by
  funext y
  show X y * (broadcastInDim S4x8192x1 ![] bcast_S_S4x8192x1 w : FVec Ideal S4x8192x1 .f32) y
      + (broadcastInDim S4x8192x1 ![] bcast_S_S4x8192x1 b : FVec Ideal S4x8192x1 .f32) y = X y * w ix0 + b ix0
  rw [spread_col w y, spread_col b y]

/-- Columns laid as rows, times a spread scalar plus a spread scalar: entry by entry the affine image of the source
    entry across the diagonal. -/
theorem affRowT_ops (X : FVec Ideal S4x8192x1 .f32) (w b : FVec Ideal S_ .f32) :
    (addf (mulf (transpose S4x1x8192 [0, 2, 1] X transposes_S4x8192x1_S4x1x8192_0_2_1)
          (broadcastInDim S4x1x8192 ![] bcast_S_S4x1x8192 w)) (broadcastInDim S4x1x8192 ![] bcast_S_S4x1x8192 b)
        : FVec Ideal S4x1x8192 .f32)
      = Cert.Spec.affRowT X (w ix0) (b ix0) := by
  funext y
  show (transpose S4x1x8192 [0, 2, 1] X transposes_S4x8192x1_S4x1x8192_0_2_1 : FVec Ideal S4x1x8192 .f32) y
        * (broadcastInDim S4x1x8192 ![] bcast_S_S4x1x8192 w : FVec Ideal S4x1x8192 .f32) y
      + (broadcastInDim S4x1x8192 ![] bcast_S_S4x1x8192 b : FVec Ideal S4x1x8192 .f32) y
      = X (ix3 (y 0) (y 2) 0) * w ix0 + b ix0
  rw [transpose_col X y, spread_row w y, spread_row b y]

/-- What the host leaves in the second window's array: the first argument scaled and shifted. -/
theorem w1_ops (c : Dev nD) : @Eq (FVec Ideal S4x8192x1 .f32) (V m c main_v3)
    (addf (mulf (m ((c.tc : Thread nD τ).loc main_arg0))
        (broadcastInDim S4x8192x1 ![] bcast_S_S4x8192x1 (m ((c.tc : Thread nD τ).loc main_arg4))))
      (broadcastInDim S4x8192x1 ![] bcast_S_S4x8192x1 (m ((c.tc : Thread nD τ).loc main_arg5)))) := by
  show StableHlo.after hostOps0 (fun b => m (c, b)) (Proc.devRef .tc main_v3) = _
  after_results

/-- What the host leaves in the third window's array: the second argument laid as rows, scaled and shifted. -/
theorem t2_ops (c : Dev nD) : @Eq (FVec Ideal S4x1x8192 .f32) (V m c main_v8)
    (addf (mulf (transpose S4x1x8192 [0, 2, 1] (m ((c.tc : Thread nD τ).loc main_arg1)) transposes_S4x8192x1_S4x1x8192_0_2_1)
        (broadcastInDim S4x1x8192 ![] bcast_S_S4x1x8192 (m ((c.tc : Thread nD τ).loc main_arg2))))
      (broadcastInDim S4x1x8192 ![] bcast_S_S4x1x8192 (m ((c.tc : Thread nD τ).loc main_arg3)))) := by
  show StableHlo.after hostOps0 (fun b => m (c, b)) (Proc.devRef .tc main_v8) = _
  after_results

/-- What the host leaves in the fourth window's array: the same rows under the other pair of scalars. -/
theorem w2_ops (c : Dev nD) : @Eq (FVec Ideal S4x1x8192 .f32) (V m c main_v12)
    (addf (mulf (transpose S4x1x8192 [0, 2, 1] (m ((c.tc : Thread nD τ).loc main_arg1)) transposes_S4x8192x1_S4x1x8192_0_2_1)
        (broadcastInDim S4x1x8192 ![] bcast_S_S4x1x8192 (m ((c.tc : Thread nD τ).loc main_arg6))))
      (broadcastInDim S4x1x8192 ![] bcast_S_S4x1x8192 (m ((c.tc : Thread nD τ).loc main_arg7)))) := by
  show StableHlo.after hostOps0 (fun b => m (c, b)) (Proc.devRef .tc main_v12) = _
  after_results

/-- The second array is the first argument scaled and shifted by two scalar arguments. -/
theorem arrW1_eq (c : Dev nD) : arrW1 m c = Cert.Spec.affCol (m ((c.tc : Thread nD τ).loc main_arg0))
    (m ((c.tc : Thread nD τ).loc main_arg4) ix0) (m ((c.tc : Thread nD τ).loc main_arg5) ix0) :=
  (w1_ops m c).trans (affCol_ops _ _ _)

/-- The third array is the second argument laid as rows, scaled and shifted by two scalar arguments. -/
theorem arrT2_eq (c : Dev nD) : arrT2 m c = Cert.Spec.affRowT (m ((c.tc : Thread nD τ).loc main_arg1))
    (m ((c.tc : Thread nD τ).loc main_arg2) ix0) (m ((c.tc : Thread nD τ).loc main_arg3) ix0) :=
  (t2_ops m c).trans (affRowT_ops _ _ _)

/-- The fourth array is the second argument laid as rows, scaled and shifted by the other two scalar arguments. -/
theorem arrW2_eq (c : Dev nD) : arrW2 m c = Cert.Spec.affRowT (m ((c.tc : Thread nD τ).loc main_arg1))
    (m ((c.tc : Thread nD τ).loc main_arg6) ix0) (m ((c.tc : Thread nD τ).loc main_arg7) ix0) :=
  (w2_ops m c).trans (affRowT_ops _ _ _)

end Cert.KernelIdeal.Blocks

end
-- ==== Proof.Steps.lean ====
/-
  The two running sums the kernel carries from grid point to grid point, as functions of the point number
  n = 32 b + 4 i + j (batch b, row block i of 1024 rows, column block j of 2048 columns), and how one point changes them.

  The S1 accumulator holds, for row r of row block i, the part of S1 over the columns of the column blocks 0 … j:
  it is reset when j = 0 and complete when j = 3.
  The S2 accumulator holds, for column k, the part of S2 over the rows of the row blocks visited so far for k's own
  column block: i + 1 of them when that column block is at most j, else i. It is reset at the first point of a batch
  and complete at its last point (i = 7, j = 3).
-/
import proofs.«122485_j36644660969672_1_alg».proof.Proof.Spec

noncomputable section

open scoped BigOperators

namespace Cert.Spec

variable (M1 W1 : Col.Idx → EReal) (T2 W2 : Row.Idx → EReal)

/-- The S1 accumulator's entry r after point n. -/
def acc1 (n r : ℕ) : EReal := rowSum M1 T2 W2 (bOf n) (iOf n * 1024 + r) ((jOf n + 1) * 2048)

/-- How many row blocks have been added into column k of the S2 accumulator after point n. -/
def cnt (n k : ℕ) : ℕ := if k / 2048 ≤ jOf n then iOf n + 1 else iOf n

/-- The S2 accumulator's entry k after point n. -/
def acc2 (n k : ℕ) : EReal := colSum M1 W1 T2 (bOf n) k (cnt n k * 1024)

theorem bOf_pred (n : ℕ) (h : n % 32 ≠ 0) : bOf (n - 1) = bOf n := by
  unfold bOf; apply Fin.ext; show (n - 1) / 32 % 4 = n / 32 % 4; omega
theorem iOf_pred (n : ℕ) (h : n % 4 ≠ 0) : iOf (n - 1) = iOf n := by
  unfold iOf; omega
theorem jOf_pred (n : ℕ) (h : n % 4 ≠ 0) : jOf (n - 1) + 1 = jOf n := by
  unfold jOf; omega

/-- At a point with j = 0 the S1 accumulator is the zero plus the point's own stretch. -/
theorem acc1_reset (n r : ℕ) (h : n % 4 = 0) :
    acc1 M1 T2 W2 n r = 0 + ∑ q : Fin 2048, rowTerm M1 T2 W2 (bOf n) (iOf n * 1024 + r) (jOf n * 2048 + q.val) := by
  unfold acc1
  have hj : jOf n = 0 := by unfold jOf; omega
  rw [hj, show (0 + 1) * 2048 = 0 + 2048 from rfl, rowSum_add, rowSum_zero]

/-- At any other point it is what the point before left plus the point's own stretch. -/
theorem acc1_step (n r : ℕ) (h : n % 4 ≠ 0) :
    acc1 M1 T2 W2 n r
      = acc1 M1 T2 W2 (n - 1) r + ∑ q : Fin 2048, rowTerm M1 T2 W2 (bOf n) (iOf n * 1024 + r) (jOf n * 2048 + q.val) := by
  unfold acc1
  rw [bOf_pred n (by omega), iOf_pred n h, jOf_pred n h,
    show (jOf n + 1) * 2048 = jOf n * 2048 + 2048 from by ring, rowSum_add]

/-- At a point with j = 3 it is the whole of S1's entry. -/
theorem acc1_last (n r : ℕ) (h : n % 4 = 3) :
    acc1 M1 T2 W2 n r = rowSum M1 T2 W2 (bOf n) (iOf n * 1024 + r) 8192 := by
  unfold acc1
  have hj : jOf n = 3 := by unfold jOf; omega
  rw [hj]

/-- At the first point of a batch, a column of the point's own column block holds the zero plus the point's stretch … -/
theorem acc2_reset_hit (n k : ℕ) (h : n % 32 = 0) (hk : k / 2048 = jOf n) :
    acc2 M1 W1 T2 n k = 0 + ∑ r : Fin 1024, colTerm M1 W1 T2 (bOf n) (iOf n * 1024 + r.val) k := by
  unfold acc2 cnt
  have hi : iOf n = 0 := by unfold iOf; omega
  rw [if_pos (le_of_eq hk), hi, show (0 + 1) * 1024 = 0 + 1024 from rfl, colSum_add, colSum_zero]

/-- … and any other column the zero. -/
theorem acc2_reset_miss (n k : ℕ) (h : n % 32 = 0) (hk : k / 2048 ≠ jOf n) : acc2 M1 W1 T2 n k = 0 := by
  unfold acc2 cnt
  have hi : iOf n = 0 := by unfold iOf; omega
  have hj : jOf n = 0 := by unfold jOf; omega
  rw [if_neg (by omega), hi, Nat.zero_mul, colSum_zero]

/-- At any other point, a column of the point's own column block gains the point's stretch of rows … -/
theorem acc2_step_hit (n k : ℕ) (h : n % 32 ≠ 0) (hk : k / 2048 = jOf n) :
    acc2 M1 W1 T2 n k
      = acc2 M1 W1 T2 (n - 1) k + ∑ r : Fin 1024, colTerm M1 W1 T2 (bOf n) (iOf n * 1024 + r.val) k := by
  have hc : cnt (n - 1) k = iOf n := by
    unfold cnt jOf iOf at *
    split_ifs <;> omega
  have hc' : cnt n k = iOf n + 1 := by
    unfold cnt; rw [if_pos (le_of_eq hk)]
  unfold acc2
  rw [bOf_pred n h, hc, hc', show (iOf n + 1) * 1024 = iOf n * 1024 + 1024 from by ring, colSum_add]

/-- … and any other column keeps what it held. -/
theorem acc2_step_miss (n k : ℕ) (h : n % 32 ≠ 0) (hk : k / 2048 ≠ jOf n) (hk8 : k < 8192) :
    acc2 M1 W1 T2 n k = acc2 M1 W1 T2 (n - 1) k := by
  have hc : cnt (n - 1) k = cnt n k := by
    unfold cnt jOf iOf at *
    split_ifs <;> omega
  unfold acc2
  rw [bOf_pred n h, hc]

/-- At the last point of a batch every column holds the whole of S2's entry. -/
theorem acc2_last (n k : ℕ) (h : n % 32 = 31) (hk8 : k < 8192) :
    acc2 M1 W1 T2 n k = colSum M1 W1 T2 (bOf n) k 8192 := by
  unfold acc2 cnt
  have hi : iOf n = 7 := by unfold iOf; omega
  have hj : jOf n = 3 := by unfold jOf; omega
  rw [if_pos (by omega), hi]

end Cert.Spec

end
-- ==== Proof.Payload.lean ====
import proofs.«122485_j36644660969672_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The kernel body's arithmetic read at an index

Over the extended reals the body of the kernel computes, from a column block `x0` and a row block `x2`, the
matrix `T r q = tanh (x0 r * x2 q)`; it adds to a column accumulator the sums of `T r q * x3 q` along each row,
and to a row accumulator the sums of `T r q * x1 r` down each column. The lemmas below say exactly this, one
coordinate at a time: each reshaping and each replication is read at an index written by its coordinates, each
reduction along one axis is a finite sum over that axis, and the constant blocks are zero everywhere.
-/

noncomputable section

namespace Cert.KernelIdeal.Payload

open Idealize.ShloMosaic Idealize.ShloMosaic.ValueIdx Cert.KernelIdeal Cert.KernelIdeal.Gen
open scoped BigOperators

/-! ## Two layout operations at rank two -/

/-- A vector of length `a` reshaped to a column `[a, 1]` has, at row `i`, the vector's entry `i`: the
row-major position of `(i, u)` in a one-column matrix is `i * 1 + 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` replicated across `b` lanes has, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The two reductions as finite sums -/

/-- The index the row reduction visits for the row `r` and the summation variable `q` is `(r, q)`. -/
theorem lift_axis1 (r : Fin 1024) (q : Fin 2048) :
    reduces_S1024x2048_S1024.lift (ix1 r) q = ix2 r q := by
  funext ax
  match ax with
  | ⟨0, _⟩ => exact Fin.ext rfl
  | ⟨1, _⟩ => exact Fin.ext rfl

/-- The index the column reduction visits for the column `q` and the summation variable `r` is `(r, q)`. -/
theorem lift_axis0 (q : Fin 2048) (r : Fin 1024) :
    reduces_S1024x2048_S2048.lift (ix1 q) r = ix2 r q := by
  funext ax
  match ax with
  | ⟨0, _⟩ => exact Fin.ext rfl
  | ⟨1, _⟩ => exact Fin.ext rfl

/-- Summing a `[1024, 2048]` matrix along its rows from a zero start: entry `r` is `∑ q, v (r, q)`. -/
theorem rowSum_apply (v : FVec Ideal S1024x2048 .f32) (r : Fin 1024) :
    multiReduction (F := Ideal) .add [1] S1024 v 0x00000000#32 reduces_S1024x2048_S1024 (.inl rfl) rfl (ix1 r)
      = ∑ q : Fin 2048, v (ix2 r q) :=
  (Ideal.multiReduction_add_single v _ reduces_S1024x2048_S1024 _ _ (ix1 r)).trans
    (Finset.sum_congr rfl fun q _ => congrArg v (lift_axis1 r q))

/-- Summing a `[1024, 2048]` matrix down its columns from a zero start: entry `q` is `∑ r, v (r, q)`. -/
theorem colSum_apply (v : FVec Ideal S1024x2048 .f32) (q : Fin 2048) :
    multiReduction (F := Ideal) .add [0] S2048 v 0x00000000#32 reduces_S1024x2048_S2048 (.inl rfl) rfl (ix1 q)
      = ∑ r : Fin 1024, v (ix2 r q) :=
  (Ideal.multiReduction_add_single v _ reduces_S1024x2048_S2048 _ _ (ix1 q)).trans
    (Finset.sum_congr rfl fun r _ => congrArg v (lift_axis0 q r))

/-! ## The payloads -/

/-- The column block `x1` with its leading unit axis dropped: row `r` is `x1 (0, r, 0)`. -/
theorem pay6_apply (x1 : Vec Ideal S1x1024x1 .f32) (r : Fin 1024) :
    k0_pay6 (F := Ideal) x1 (ix2 r 0) = x1 (ix3 0 r 0) :=
  shapeCast_1ab_ab_apply x1 shapeCasts_S1x1024x1_S1024x1 r 0

/-- The matrix `T`: at `(r, q)` it is `tanh (x0 r * x2 q)`. -/
theorem pay7_apply (x0 : Vec Ideal S1x1024x1 .f32) (x2 : Vec Ideal S1x1x2048 .f32) (r : Fin 1024) (q : Fin 2048) :
    k0_pay7 (F := Ideal) x0 x2 (ix2 r q) = Ideal.tanh (x0 (ix3 0 r 0) * x2 (ix3 0 0 q)) := by
  unfold k0_pay7
  show Ideal.tanh
      (broadcastTo S1024x2048 (shapeCast S1024x1 x0 shapeCasts_S1x1024x1_S1024x1) broadcasts_S1024x1_S1024x2048 (ix2 r q)
        * broadcastTo S1024x2048 (shapeCast S1x2048 x2 shapeCasts_S1x1x2048_S1x2048) broadcasts_S1x2048_S1024x2048 (ix2 r q)) = _
  rw [broadcastTo_a1_ab_apply, broadcastTo_1b_ab_apply, shapeCast_1ab_ab_apply, shapeCast_1ab_ab_apply]

/-- The column update: the accumulator's row `r` plus `∑ q, T r q * x3 q`. -/
theorem pay8_apply (x0 : Vec Ideal S1x1024x1 .f32) (x2 x3 : Vec Ideal S1x1x2048 .f32) (a : Vec Ideal S1024x1 .f32) (r : Fin 1024) :
    k0_pay8 (F := Ideal) x0 x2 x3 a (ix2 r 0) = a (ix2 r 0) + ∑ q : Fin 2048, Ideal.tanh (x0 (ix3 0 r 0) * x2 (ix3 0 0 q)) * x3 (ix3 0 0 q) := by
  unfold k0_pay8
  rw [shapeCast_self]
  show a (ix2 r 0) + shapeCast S1024x1 (multiReduction (F := Ideal) .add [1] S1024
      (mulf (k0_pay7 x0 x2) (broadcastTo S1024x2048 (shapeCast S1x2048 x3 shapeCasts_S1x1x2048_S1x2048) broadcasts_S1x2048_S1024x2048))
      0x00000000#32 reduces_S1024x2048_S1024 (.inl rfl) rfl) shapeCasts_S1024_S1024x1 (ix2 r 0) = _
  rw [shapeCast_a_a1_apply, rowSum_apply]
  refine congrArg (a (ix2 r 0) + ·) (Finset.sum_congr rfl fun q _ => ?_)
  show k0_pay7 x0 x2 (ix2 r q) * broadcastTo S1024x2048 (shapeCast S1x2048 x3 shapeCasts_S1x1x2048_S1x2048) broadcasts_S1x2048_S1024x2048 (ix2 r q) = _
  rw [pay7_apply, broadcastTo_1b_ab_apply, shapeCast_1ab_ab_apply]

/-- The row update: the accumulator's lane `q` plus `∑ r, T r q * x1 r`. -/
theorem pay1_apply (x0 x1 : Vec Ideal S1x1024x1 .f32) (x2 : Vec Ideal S1x1x2048 .f32) (a : Vec Ideal S1x2048 .f32) (q : Fin 2048) :
    k0_pay1 (F := Ideal) (k0_pay6 x1) (k0_pay7 x0 x2) a (ix2 0 q) = a (ix2 0 q) + ∑ r : Fin 1024, Ideal.tanh (x0 (ix3 0 r 0) * x2 (ix3 0 0 q)) * x1 (ix3 0 r 0) := by
  unfold k0_pay1
  rw [shapeCast_self]
  show a (ix2 0 q) + shapeCast S1x2048 (multiReduction (F := Ideal) .add [0] S2048
      (mulf (k0_pay7 x0 x2) (broadcastTo S1024x2048 (k0_pay6 x1) broadcasts_S1024x1_S1024x2048))
      0x00000000#32 reduces_S1024x2048_S2048 (.inl rfl) rfl) shapeCasts_S2048_S1x2048 (ix2 0 q) = _
  rw [shapeCast_a_1a_apply, colSum_apply]
  refine congrArg (a (ix2 0 q) + ·) (Finset.sum_congr rfl fun r _ => ?_)
  show k0_pay7 x0 x2 (ix2 r q) * broadcastTo S1024x2048 (k0_pay6 x1) broadcasts_S1024x1_S1024x2048 (ix2 r q) = _
  rw [pay7_apply, broadcastTo_a1_ab_apply, pay6_apply]

/-- The column accumulator's initial block is zero everywhere. -/
theorem pay4_apply (y : S1024x1.Idx) : k0_pay4 (F := Ideal) y = 0 := by
  unfold k0_pay4
  rw [shapeCast_self]
  exact Ideal.ofBits_zero_f32

/-- The row accumulator's initial block is zero everywhere. -/
theorem pay5_apply (y : S1x8192.Idx) : k0_pay5 (F := Ideal) y = 0 := by
  unfold k0_pay5
  rw [shapeCast_self]
  exact Ideal.ofBits_zero_f32

/-- The column accumulator written out with a leading unit axis: entry `(0, r, 0)` is the accumulator's row `r`. -/
theorem pay2_apply (a : Vec Ideal S1024x1 .f32) (r : Fin 1024) : k0_pay2 (F := Ideal) a (ix3 0 r 0) = a (ix2 r 0) :=
  shapeCast_ab_1ab_apply a shapeCasts_S1024x1_S1x1024x1 0 r 0

/-- The row accumulator written out with a leading unit axis: entry `(0, 0, n)` is the accumulator's lane `n`. -/
theorem pay3_apply (a : Vec Ideal S1x8192 .f32) (n : Fin 8192) : k0_pay3 (F := Ideal) a (ix3 0 0 n) = a (ix2 0 n) :=
  shapeCast_ab_1ab_apply a shapeCasts_S1x8192_S1x1x8192 0 0 n

end Cert.KernelIdeal.Payload

end
-- ==== Proof.Pieces.lean ====
import proofs.«122485_j36644660969672_1_alg».proof.Proof.Gen.KernelIdeal.Frame
import Idealize.ShloMosaic.Lib.Pipeline.Value
import Idealize.ShloMosaic.Lib.WritesUnit
import Idealize.ShloMosaic.Lib.Tactic
import Idealize.ShloMosaic.Lib.ValueIdx

/-!
# What each control case leaves in the buffers

At a grid point `i` the body runs one of five control cases. In each, the column accumulator (a `[1024, 1]` scratch)
ends as the column update of either what it held or the zero block; the row accumulator (a `[1, 8192]` scratch) is
changed only on the stretch of 2048 lanes starting at `(i 2) * 2048`, where it receives the row update of the stretch
it held (or of zeros, when it was reset first); and the two output blocks, when stored, are the accumulators with a
leading unit axis added. The statements hold for any float model.
-/

set_option maxRecDepth 16384

noncomputable section

namespace Cert.KernelIdeal.Pieces

open Idealize.ShloMosaic Idealize.ShloMosaic.TcCoe Idealize.SL.Sem Idealize.ShloMosaic.Tactic Idealize.ShloMosaic.ValueIdx Cert.KernelIdeal Cert.KernelIdeal.Gen

variable {F : FTy → Type} [FloatOps F]

/-! ## Offsets -/

/-- The zero offsets at rank two, as a constant function. -/
theorem hz2 : (![0, 0] : Fin 2 → Nat) = fun _ => 0 := funext fun a => by fin_cases a <;> rfl

/-- The zero offsets at rank three, as a constant function. -/
theorem hz3 : (![0, 0, 0] : Fin 3 → Nat) = fun _ => 0 := funext fun a => by fin_cases a <;> rfl

/-- The stretch's offset in closed form: the 32-bit product `(i 2) * 2048` does not wrap, the coordinate being below 4. -/
theorem off1_eq (i : grid0.Coords) : k0_off1 i = ![0, (i 2).val * 2048] := by
  have h : ∀ k : Fin 4, (Scalar.indexCast (Scalar.muli (BitVec.ofNat 32 k.val) 2048#32)).toNat = k.val * 2048 := by decide
  exact congrArg (fun t => (![0, t] : Fin 2 → ℕ)) (h (i 2))

/-- Position `q` of the stretch is lane `n = (i 2) * 2048 + q` of the row. -/
theorem emb_off1 (i : grid0.Coords) (inb : ∀ a, k0_off1 i a + (![1, 2048] : Fin 2 → ℕ) a ≤ S1x8192.size a)
    (n : Fin 8192) (q : Fin 2048) (hn : n.val = (i 2).val * 2048 + q.val) :
    (Rect.unit (s := S1x8192) (k0_off1 i) ![1, 2048] inb).emb (ix2 (0 : Fin 1) q) = ix2 (0 : Fin 1) n := by
  funext a
  refine Fin.ext ?_
  show k0_off1 i a + 1 * ((ix2 (0 : Fin 1) q : (⟨2, ![1, 2048]⟩ : Shape).Idx) a).val = ((ix2 (0 : Fin 1) n : S1x8192.Idx) a).val
  rw [off1_eq i, Nat.one_mul]
  match a with
  | ⟨0, _⟩ => rfl
  | ⟨1, _⟩ => exact hn.symm

/-! ## A row of 8192 lanes read after its newest store -/

/-- The newest store being the stretch: a lane inside it, at position `q`, reads the stored row at `q`. -/
theorem read_update_hit (v : View sig .tc .vmem S1x8192 .f32) (f : v.ty.Contents (Elt F)) (i : grid0.Coords)
    (inb : ∀ a, k0_off1 i a + (![1, 2048] : Fin 2 → ℕ) a ≤ S1x8192.size a)
    (w : (Rect.unit (s := S1x8192) (k0_off1 i) ![1, 2048] inb).shape.Idx → Elt F .f32) (L : List (View.Piece (Elt F) S1x8192 .f32))
    (n : Fin 8192) (q : Fin 2048) (hn : n.val = (i 2).val * 2048 + q.val) :
    v.read (Elt F) (v.writes (Elt F) f ((⟨Rect.unit (k0_off1 i) ![1, 2048] inb, w⟩ : View.Piece (Elt F) S1x8192 .f32) :: L)) (ix2 (0 : Fin 1) n)
      = w (ix2 (0 : Fin 1) q) :=
  View.read_writes_cons_unit_of_mem v f inb w L (ix2 (0 : Fin 1) n) (ix2 (0 : Fin 1) q) (off1_eq i) fun a =>
    match a with
    | ⟨0, _⟩ => rfl
    | ⟨1, _⟩ => hn

/-- The newest store being the stretch: a lane whose quotient by 2048 is not `i 2` lies outside it and reads what the
earlier stores left. -/
theorem read_update_miss (v : View sig .tc .vmem S1x8192 .f32) (f : v.ty.Contents (Elt F)) (i : grid0.Coords)
    (inb : ∀ a, k0_off1 i a + (![1, 2048] : Fin 2 → ℕ) a ≤ S1x8192.size a)
    (w : (Rect.unit (s := S1x8192) (k0_off1 i) ![1, 2048] inb).shape.Idx → Elt F .f32) (L : List (View.Piece (Elt F) S1x8192 .f32))
    (n : Fin 8192) (hn : n.val / 2048 ≠ (i 2).val) :
    v.read (Elt F) (v.writes (Elt F) f ((⟨Rect.unit (k0_off1 i) ![1, 2048] inb, w⟩ : View.Piece (Elt F) S1x8192 .f32) :: L)) (ix2 (0 : Fin 1) n)
      = v.read (Elt F) (v.writes (Elt F) f L) (ix2 (0 : Fin 1) n) :=
  View.read_writes_cons_unit_of_not_mem v f inb w L (ix2 (0 : Fin 1) n) (off1_eq i) (1 : Fin 2) (by
    show n.val < (i 2).val * 2048 ∨ (i 2).val * 2048 + 2048 ≤ n.val
    omega)

/-- The newest store being the whole row: every lane reads the stored row there. -/
theorem read_whole (v : View sig .tc .vmem S1x8192 .f32) (f : v.ty.Contents (Elt F))
    (inb : ∀ a, (![0, 0] : Fin 2 → ℕ) a + S1x8192.size a ≤ S1x8192.size a)
    (w : (Rect.unit (s := S1x8192) ![0, 0] S1x8192.size inb).shape.Idx → Elt F .f32) (L : List (View.Piece (Elt F) S1x8192 .f32))
    (n : Fin 8192) :
    v.read (Elt F) (v.writes (Elt F) f ((⟨Rect.unit ![0, 0] S1x8192.size inb, w⟩ : View.Piece (Elt F) S1x8192 .f32) :: L)) (ix2 (0 : Fin 1) n)
      = w (ix2 (0 : Fin 1) n) :=
  View.read_writes_cons_unit_of_mem v f inb w L (ix2 (0 : Fin 1) n) (ix2 (0 : Fin 1) n) rfl fun a =>
    match a with
    | ⟨0, _⟩ => rfl
    | ⟨1, _⟩ => (Nat.zero_add _).symm

/-! ## The column accumulator -/

/-- Case A (the last two coordinates are both 0: both accumulators are reset): the column accumulator ends as the column update of the zero block. -/
theorem sA0 (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : cond0_0 i) (hc1 : cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) :
    sout0_A_0 c i arg3 harg3 arg4 harg4 arg5 harg5 arg6 harg6 arg7 harg7 arg8 harg8 arg9 harg9 arg10 harg10 hc0 hc1 hc2 hc3 x0 x1 x2 x3 = k0_pay8 x0 x2 x3 k0_pay4 := by
  unfold sout0_A_0
  rw [View.read_writes_eq_canon _ _ _ (scover0_A_0 c i arg3 harg3 arg4 harg4 arg5 harg5 arg6 harg6 arg7 harg7 arg8 harg8 arg9 harg9 arg10 harg10 hc0 hc1 hc2 hc3 x0 x1 x2 x3)]
  unfold kernelRun0_A
  dsimp only
  sl_unfold_words
  rw [View.canon_cons_unit_zero (S := S1024x1) hz2, View.readCov_unit_zero (S := S1024x1) _ hz2]
  simp only [View.readAt_eq_ld, harg3.read_unread, harg5.read_unread, harg6.read_unread, harg9.read_unread, View.ld_unit_zero (S := S1x1024x1) hz3, View.ld_unit_zero (S := S1x1x2048) hz3, View.ld_unit_zero (S := S1024x1) hz2]

/-- Case B (the last coordinate is neither 0 nor 3: nothing is reset and nothing is written out): the column accumulator ends as the column update of what it held. -/
theorem sB0 (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) :
    sout0_B_0 c i arg3 harg3 arg4 harg4 arg5 harg5 arg6 harg6 arg7 harg7 arg8 harg8 arg9 harg9 arg10 harg10 hc0 hc1 hc2 hc3 x0 x1 x2 x3 xs0 xs1 = k0_pay8 x0 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 hc2 hc3 x0 x1 x2 x3 xs0 xs1)]
  unfold kernelRun0_B
  dsimp only
  sl_unfold_words
  rw [View.canon_unit_zero hz2]
  simp only [View.readAt_eq_ld, harg3.read_unread, harg5.read_unread, harg6.read_unread, harg9.read_unread, View.ld_unit_zero (S := S1x1024x1) hz3, View.ld_unit_zero (S := S1x1x2048) hz3, View.ld_unit_zero (S := S1024x1) hz2]

/-- Case C (the last coordinate is 3, the middle one not 7: the column accumulator is written out): the column accumulator ends as the column update of what it held. -/
theorem sC0 (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : ¬cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) :
    sout0_C_0 c i arg3 harg3 arg4 harg4 arg5 harg5 arg6 harg6 arg7 harg7 arg8 harg8 arg9 harg9 arg10 harg10 hc0 hc1 hc2 hc3 x0 x1 x2 x3 xs0 xs1 = k0_pay8 x0 x2 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 hc2 hc3 x0 x1 x2 x3 xs0 xs1)]
  unfold kernelRun0_C
  dsimp only
  sl_unfold_words
  rw [View.canon_unit_zero hz2]
  simp only [View.readAt_eq_ld, harg3.read_unread, harg5.read_unread, harg6.read_unread, harg9.read_unread, View.ld_unit_zero (S := S1x1024x1) hz3, View.ld_unit_zero (S := S1x1x2048) hz3, View.ld_unit_zero (S := S1024x1) hz2]

/-- Case D (the last coordinate is 0, the middle one not 0: only the column accumulator is reset): the column accumulator ends as the column update of the zero block. -/
theorem sD0 (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : cond0_0 i) (hc1 : ¬cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) (xs1 : Vec F S1x8192 .f32) :
    sout0_D_0 c i arg3 harg3 arg4 harg4 arg5 harg5 arg6 harg6 arg7 harg7 arg8 harg8 arg9 harg9 arg10 harg10 hc0 hc1 hc2 hc3 x0 x1 x2 x3 xs1 = k0_pay8 x0 x2 x3 k0_pay4 := by
  unfold sout0_D_0
  rw [View.read_writes_eq_canon _ _ _ (scover0_D_0 c i arg3 harg3 arg4 harg4 arg5 harg5 arg6 harg6 arg7 harg7 arg8 harg8 arg9 harg9 arg10 harg10 hc0 hc1 hc2 hc3 x0 x1 x2 x3 xs1)]
  unfold kernelRun0_D
  dsimp only
  sl_unfold_words
  rw [View.canon_cons_unit_zero (S := S1024x1) hz2, View.readCov_unit_zero (S := S1024x1) _ hz2]
  simp only [View.readAt_eq_ld, harg3.read_unread, harg5.read_unread, harg6.read_unread, harg9.read_unread, View.ld_unit_zero (S := S1x1024x1) hz3, View.ld_unit_zero (S := S1x1x2048) hz3, View.ld_unit_zero (S := S1024x1) hz2]

/-- Case E (the last coordinate is 3 and the middle one 7: both accumulators are written out): the column accumulator ends as the column update of what it held. -/
theorem sE0 (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) :
    sout0_E_0 c i arg3 harg3 arg4 harg4 arg5 harg5 arg6 harg6 arg7 harg7 arg8 harg8 arg9 harg9 arg10 harg10 hc0 hc1 hc2 hc3 x0 x1 x2 x3 xs0 xs1 = k0_pay8 x0 x2 x3 xs0 := by
  unfold sout0_E_0
  rw [View.read_writes_eq_canon _ _ _ (scover0_E_0 c i arg3 harg3 arg4 harg4 arg5 harg5 arg6 harg6 arg7 harg7 arg8 harg8 arg9 harg9 arg10 harg10 hc0 hc1 hc2 hc3 x0 x1 x2 x3 xs0 xs1)]
  unfold kernelRun0_E
  dsimp only
  sl_unfold_words
  rw [View.canon_unit_zero hz2]
  simp only [View.readAt_eq_ld, harg3.read_unread, harg5.read_unread, harg6.read_unread, harg9.read_unread, View.ld_unit_zero (S := S1x1024x1) hz3, View.ld_unit_zero (S := S1x1x2048) hz3, View.ld_unit_zero (S := S1024x1) hz2]

/-! ## The output blocks -/

/-- Case C: output 4's block is the updated column accumulator with a leading unit axis added. -/
theorem oC4 (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : ¬cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) :
    out0_C_4 c i arg3 harg3 arg4 harg4 arg5 harg5 arg6 harg6 arg7 harg7 arg8 harg8 arg9 harg9 arg10 harg10 hc0 hc1 hc2 hc3 x0 x1 x2 x3 xs0 xs1 = k0_pay2 (k0_pay8 x0 x2 x3 xs0) := by
  unfold out0_C_4
  rw [View.read_writes_eq_canon _ _ _ (cover0_C_4 c i arg3 harg3 arg4 harg4 arg5 harg5 arg6 harg6 arg7 harg7 arg8 harg8 arg9 harg9 arg10 harg10 hc0 hc1 hc2 hc3 x0 x1 x2 x3 xs0 xs1)]
  unfold kernelRun0_C
  dsimp only
  sl_unfold_words
  rw [View.canon_unit_zero hz3, View.readCov_unit_zero (S := S1024x1) _ hz2]
  simp only [View.readAt_eq_ld, harg3.read_unread, harg5.read_unread, harg6.read_unread, harg9.read_unread, View.ld_unit_zero (S := S1x1024x1) hz3, View.ld_unit_zero (S := S1x1x2048) hz3, View.ld_unit_zero (S := S1024x1) hz2]

/-- Case E: output 4's block is the updated column accumulator with a leading unit axis added. -/
theorem oE4 (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) :
    out0_E_4 c i arg3 harg3 arg4 harg4 arg5 harg5 arg6 harg6 arg7 harg7 arg8 harg8 arg9 harg9 arg10 harg10 hc0 hc1 hc2 hc3 x0 x1 x2 x3 xs0 xs1 = k0_pay2 (k0_pay8 x0 x2 x3 xs0) := by
  unfold out0_E_4
  rw [View.read_writes_eq_canon _ _ _ (cover0_E_4 c i arg3 harg3 arg4 harg4 arg5 harg5 arg6 harg6 arg7 harg7 arg8 harg8 arg9 harg9 arg10 harg10 hc0 hc1 hc2 hc3 x0 x1 x2 x3 xs0 xs1)]
  unfold kernelRun0_E
  dsimp only
  sl_unfold_words
  rw [View.canon_unit_zero hz3, View.readCov_unit_zero (S := S1024x1) _ hz2]
  simp only [View.readAt_eq_ld, harg3.read_unread, harg5.read_unread, harg6.read_unread, harg9.read_unread, View.ld_unit_zero (S := S1x1024x1) hz3, View.ld_unit_zero (S := S1x1x2048) hz3, View.ld_unit_zero (S := S1024x1) hz2]

/-- Case E: output 5's block is the row accumulator as this point leaves it, with a leading unit axis added. -/
theorem oE5 (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) :
    out0_E_5 c i arg3 harg3 arg4 harg4 arg5 harg5 arg6 harg6 arg7 harg7 arg8 harg8 arg9 harg9 arg10 harg10 hc0 hc1 hc2 hc3 x0 x1 x2 x3 xs0 xs1 = k0_pay3 (sout0_E_1 c i arg3 harg3 arg4 harg4 arg5 harg5 arg6 harg6 arg7 harg7 arg8 harg8 arg9 harg9 arg10 harg10 hc0 hc1 hc2 hc3 x0 x1 x2 x3 xs0 xs1) := by
  unfold out0_E_5
  rw [View.read_writes_eq_canon _ _ _ (cover0_E_5 c i arg3 harg3 arg4 harg4 arg5 harg5 arg6 harg6 arg7 harg7 arg8 harg8 arg9 harg9 arg10 harg10 hc0 hc1 hc2 hc3 x0 x1 x2 x3 xs0 xs1)]
  unfold sout0_E_1 kernelRun0_E
  dsimp only
  sl_unfold_words
  rw [View.canon_unit_zero hz3]
  simp only [View.readAt_eq_ld, View.ld_unit_zero (S := S1x8192) hz2]

/-! ## The row accumulator -/

/-- Case A, a lane inside the stretch: the row accumulator, first zeroed whole, holds the row update of a row whose lane
`q` is the zero block's lane `n`. -/
theorem sA1_hit (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : cond0_0 i) (hc1 : cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) (n : Fin 8192) (q : Fin 2048) (hn : n.val = (i 2).val * 2048 + q.val) :
    ∃ a : Vec F S1x2048 .f32, a (ix2 0 q) = k0_pay5 (ix2 0 n) ∧ sout0_A_1 c i arg3 harg3 arg4 harg4 arg5 harg5 arg6 harg6 arg7 harg7 arg8 harg8 arg9 harg9 arg10 harg10 hc0 hc1 hc2 hc3 x0 x1 x2 x3 (ix2 0 n) = k0_pay1 (k0_pay6 x1) (k0_pay7 x0 x2) a (ix2 0 q) := by
  unfold sout0_A_1 kernelRun0_A
  dsimp only
  sl_unfold_words
  refine ⟨View.ld (arg10.view.read (Elt F) (arg10.view.writes (Elt F) arg10.view.junk
      [⟨Rect.unit ![0, 0] S1x8192.size inb_S1x8192_S1x8192_0_0, k0_pay5⟩])) (Rect.unit (k0_off1 i) ![1, 2048] (k0_off1_inb i)),
    ?_, (read_update_hit _ _ i _ _ _ n q hn).trans ?_⟩
  · show arg10.view.read (Elt F) (arg10.view.writes (Elt F) arg10.view.junk
      [⟨Rect.unit ![0, 0] S1x8192.size inb_S1x8192_S1x8192_0_0, k0_pay5⟩]) ((Rect.unit (s := S1x8192) (k0_off1 i) ![1, 2048] (k0_off1_inb i)).emb (ix2 0 q)) = _
    rw [emb_off1 i _ n q hn]
    exact read_whole _ _ _ _ _ n
  · simp only [View.readAt_eq_ld, harg3.read_unread, harg4.read_unread, harg5.read_unread, harg10.read_unread, View.ld_unit_zero (S := S1x1024x1) hz3, View.ld_unit_zero (S := S1x1x2048) hz3]
    rfl

/-- Case A, a lane outside the stretch: the row accumulator holds the zero block's lane. -/
theorem sA1_miss (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : cond0_0 i) (hc1 : cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) (n : Fin 8192) (hn : n.val / 2048 ≠ (i 2).val) :
    sout0_A_1 c i arg3 harg3 arg4 harg4 arg5 harg5 arg6 harg6 arg7 harg7 arg8 harg8 arg9 harg9 arg10 harg10 hc0 hc1 hc2 hc3 x0 x1 x2 x3 (ix2 0 n) = k0_pay5 (ix2 0 n) := by
  unfold sout0_A_1 kernelRun0_A
  dsimp only
  sl_unfold_words
  exact (read_update_miss _ _ i _ _ _ n hn).trans (read_whole _ _ _ _ _ n)

/-- Case B, a lane `n` inside the stretch `[(i 2) * 2048, (i 2) * 2048 + 2048)` at position `q`: the row accumulator
holds the row update, at `q`, of a row whose lane `q` is what the accumulator held at `n`. -/
theorem sB1_hit (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) (n : Fin 8192) (q : Fin 2048) (hn : n.val = (i 2).val * 2048 + q.val) :
    ∃ a : Vec F S1x2048 .f32, a (ix2 0 q) = xs1 (ix2 0 n) ∧ sout0_B_1 c i arg3 harg3 arg4 harg4 arg5 harg5 arg6 harg6 arg7 harg7 arg8 harg8 arg9 harg9 arg10 harg10 hc0 hc1 hc2 hc3 x0 x1 x2 x3 xs0 xs1 (ix2 0 n) = k0_pay1 (k0_pay6 x1) (k0_pay7 x0 x2) a (ix2 0 q) := by
  unfold sout0_B_1 kernelRun0_B
  dsimp only
  sl_unfold_words
  refine ⟨View.ld xs1 (Rect.unit (k0_off1 i) ![1, 2048] (k0_off1_inb i)), congrArg xs1 (emb_off1 i _ n q hn),
    (read_update_hit _ _ i _ _ _ n q hn).trans ?_⟩
  simp only [View.readAt_eq_ld, harg3.read_unread, harg4.read_unread, harg5.read_unread, harg10.read_unread, View.ld_unit_zero (S := S1x1024x1) hz3, View.ld_unit_zero (S := S1x1x2048) hz3]
  rfl

/-- Case B, a lane outside the stretch: the row accumulator keeps what it held. -/
theorem sB1_miss (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) (n : Fin 8192) (hn : n.val / 2048 ≠ (i 2).val) :
    sout0_B_1 c i arg3 harg3 arg4 harg4 arg5 harg5 arg6 harg6 arg7 harg7 arg8 harg8 arg9 harg9 arg10 harg10 hc0 hc1 hc2 hc3 x0 x1 x2 x3 xs0 xs1 (ix2 0 n) = xs1 (ix2 0 n) := by
  unfold sout0_B_1 kernelRun0_B
  dsimp only
  sl_unfold_words
  refine (read_update_miss _ _ i _ _ _ n hn).trans ?_
  rw [View.writes_nil, harg10.read_unread]

/-- Case C, a lane `n` inside the stretch `[(i 2) * 2048, (i 2) * 2048 + 2048)` at position `q`: the row accumulator
holds the row update, at `q`, of a row whose lane `q` is what the accumulator held at `n`. -/
theorem sC1_hit (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : ¬cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) (n : Fin 8192) (q : Fin 2048) (hn : n.val = (i 2).val * 2048 + q.val) :
    ∃ a : Vec F S1x2048 .f32, a (ix2 0 q) = xs1 (ix2 0 n) ∧ sout0_C_1 c i arg3 harg3 arg4 harg4 arg5 harg5 arg6 harg6 arg7 harg7 arg8 harg8 arg9 harg9 arg10 harg10 hc0 hc1 hc2 hc3 x0 x1 x2 x3 xs0 xs1 (ix2 0 n) = k0_pay1 (k0_pay6 x1) (k0_pay7 x0 x2) a (ix2 0 q) := by
  unfold sout0_C_1 kernelRun0_C
  dsimp only
  sl_unfold_words
  refine ⟨View.ld xs1 (Rect.unit (k0_off1 i) ![1, 2048] (k0_off1_inb i)), congrArg xs1 (emb_off1 i _ n q hn),
    (read_update_hit _ _ i _ _ _ n q hn).trans ?_⟩
  simp only [View.readAt_eq_ld, harg3.read_unread, harg4.read_unread, harg5.read_unread, harg10.read_unread, View.ld_unit_zero (S := S1x1024x1) hz3, View.ld_unit_zero (S := S1x1x2048) hz3]
  rfl

/-- Case C, a lane outside the stretch: the row accumulator keeps what it held. -/
theorem sC1_miss (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : ¬cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) (n : Fin 8192) (hn : n.val / 2048 ≠ (i 2).val) :
    sout0_C_1 c i arg3 harg3 arg4 harg4 arg5 harg5 arg6 harg6 arg7 harg7 arg8 harg8 arg9 harg9 arg10 harg10 hc0 hc1 hc2 hc3 x0 x1 x2 x3 xs0 xs1 (ix2 0 n) = xs1 (ix2 0 n) := by
  unfold sout0_C_1 kernelRun0_C
  dsimp only
  sl_unfold_words
  refine (read_update_miss _ _ i _ _ _ n hn).trans ?_
  rw [View.writes_nil, harg10.read_unread]

/-- Case D, a lane `n` inside the stretch `[(i 2) * 2048, (i 2) * 2048 + 2048)` at position `q`: the row accumulator
holds the row update, at `q`, of a row whose lane `q` is what the accumulator held at `n`. -/
theorem sD1_hit (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : cond0_0 i) (hc1 : ¬cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) (xs1 : Vec F S1x8192 .f32) (n : Fin 8192) (q : Fin 2048) (hn : n.val = (i 2).val * 2048 + q.val) :
    ∃ a : Vec F S1x2048 .f32, a (ix2 0 q) = xs1 (ix2 0 n) ∧ sout0_D_1 c i arg3 harg3 arg4 harg4 arg5 harg5 arg6 harg6 arg7 harg7 arg8 harg8 arg9 harg9 arg10 harg10 hc0 hc1 hc2 hc3 x0 x1 x2 x3 xs1 (ix2 0 n) = k0_pay1 (k0_pay6 x1) (k0_pay7 x0 x2) a (ix2 0 q) := by
  unfold sout0_D_1 kernelRun0_D
  dsimp only
  sl_unfold_words
  refine ⟨View.ld xs1 (Rect.unit (k0_off1 i) ![1, 2048] (k0_off1_inb i)), congrArg xs1 (emb_off1 i _ n q hn),
    (read_update_hit _ _ i _ _ _ n q hn).trans ?_⟩
  simp only [View.readAt_eq_ld, harg3.read_unread, harg4.read_unread, harg5.read_unread, harg10.read_unread, View.ld_unit_zero (S := S1x1024x1) hz3, View.ld_unit_zero (S := S1x1x2048) hz3]
  rfl

/-- Case D, a lane outside the stretch: the row accumulator keeps what it held. -/
theorem sD1_miss (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : cond0_0 i) (hc1 : ¬cond0_1 i) (hc2 : ¬cond0_2 i) (hc3 : ¬cond0_3 i)
    (x0 : Vec F S1x1024x1 .f32) (x1 : Vec F S1x1024x1 .f32) (x2 : Vec F S1x1x2048 .f32) (x3 : Vec F S1x1x2048 .f32) (xs1 : Vec F S1x8192 .f32) (n : Fin 8192) (hn : n.val / 2048 ≠ (i 2).val) :
    sout0_D_1 c i arg3 harg3 arg4 harg4 arg5 harg5 arg6 harg6 arg7 harg7 arg8 harg8 arg9 harg9 arg10 harg10 hc0 hc1 hc2 hc3 x0 x1 x2 x3 xs1 (ix2 0 n) = xs1 (ix2 0 n) := by
  unfold sout0_D_1 kernelRun0_D
  dsimp only
  sl_unfold_words
  refine (read_update_miss _ _ i _ _ _ n hn).trans ?_
  rw [View.writes_nil, harg10.read_unread]

/-- Case E, a lane `n` inside the stretch `[(i 2) * 2048, (i 2) * 2048 + 2048)` at position `q`: the row accumulator
holds the row update, at `q`, of a row whose lane `q` is what the accumulator held at `n`. -/
theorem sE1_hit (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) (n : Fin 8192) (q : Fin 2048) (hn : n.val = (i 2).val * 2048 + q.val) :
    ∃ a : Vec F S1x2048 .f32, a (ix2 0 q) = xs1 (ix2 0 n) ∧ sout0_E_1 c i arg3 harg3 arg4 harg4 arg5 harg5 arg6 harg6 arg7 harg7 arg8 harg8 arg9 harg9 arg10 harg10 hc0 hc1 hc2 hc3 x0 x1 x2 x3 xs0 xs1 (ix2 0 n) = k0_pay1 (k0_pay6 x1) (k0_pay7 x0 x2) a (ix2 0 q) := by
  unfold sout0_E_1 kernelRun0_E
  dsimp only
  sl_unfold_words
  refine ⟨View.ld xs1 (Rect.unit (k0_off1 i) ![1, 2048] (k0_off1_inb i)), congrArg xs1 (emb_off1 i _ n q hn),
    (read_update_hit _ _ i _ _ _ n q hn).trans ?_⟩
  simp only [View.readAt_eq_ld, harg3.read_unread, harg4.read_unread, harg5.read_unread, harg10.read_unread, View.ld_unit_zero (S := S1x1024x1) hz3, View.ld_unit_zero (S := S1x1x2048) hz3]
  rfl

/-- Case E, a lane outside the stretch: the row accumulator keeps what it held. -/
theorem sE1_miss (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1024x1 .f32) (harg7 : arg7.IsWhole) (arg8 : Memref sig .tc .vmem S1x1x8192 .f32) (harg8 : arg8.IsWhole) (arg9 : Memref sig .tc .vmem S1024x1 .f32) (harg9 : arg9.IsWhole) (arg10 : Memref sig .tc .vmem S1x8192 .f32) (harg10 : arg10.IsWhole) (hc0 : ¬cond0_0 i) (hc1 : ¬cond0_1 i) (hc2 : cond0_2 i) (hc3 : cond0_3 i)
    (x0 : Vec F S1x1024x1 .f32) (x1 : Vec F S1x1024x1 .f32) (x2 : Vec F S1x1x2048 .f32) (x3 : Vec F S1x1x2048 .f32) (xs0 : Vec F S1024x1 .f32) (xs1 : Vec F S1x8192 .f32) (n : Fin 8192) (hn : n.val / 2048 ≠ (i 2).val) :
    sout0_E_1 c i arg3 harg3 arg4 harg4 arg5 harg5 arg6 harg6 arg7 harg7 arg8 harg8 arg9 harg9 arg10 harg10 hc0 hc1 hc2 hc3 x0 x1 x2 x3 xs0 xs1 (ix2 0 n) = xs1 (ix2 0 n) := by
  unfold sout0_E_1 kernelRun0_E
  dsimp only
  sl_unfold_words
  refine (read_update_miss _ _ i _ _ _ n hn).trans ?_
  rw [View.writes_nil, harg10.read_unread]

end Cert.KernelIdeal.Pieces

end
-- ==== Proof.CaseForms.lean ====
/-
  What the kernel's buffers hold after each grid point, case by case, over names of literal vector types.

  The grid has 128 points t = 32 b + 4 i + j (batch b, row block i, column block j = t mod 4). A point falls in one of
  five cases according to j = 0 (the row-sum accumulator restarts), t mod 32 = 0 (the column-sum accumulator restarts),
  j = 3 (the row sums of the block are complete and output 4 is written) and t mod 32 = 31 (the column sums of the
  batch are complete and output 5 is written). Each statement below reads the point's contents in whichever cases
  its hypothesis allows and finds the same closed form in all of them; the combinations of conditions that no
  point t < 128 meets are excluded by arithmetic.
-/
import proofs.«122485_j36644660969672_1_alg».proof.Proof.Gen.KernelIdeal.Frame
import proofs.«122485_j36644660969672_1_alg».proof.Proof.Pieces
import Idealize.ShloMosaic.Lib.ValueIdx

noncomputable section

namespace Cert.KernelIdeal.CaseForms

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-! ## Names of literal vector types for what a grid point reads and leaves -/

/-- The block of m1 the point t reads. -/
abbrev xb0 (c : Dev nD) (t : Fin cfg0.N) : Vec Ideal S1x1024x1 .f32 := iblk m c 0 t
/-- The block of the w1-column the point t reads. -/
abbrev xb1 (c : Dev nD) (t : Fin cfg0.N) : Vec Ideal S1x1024x1 .f32 := iblk m c 1 t
/-- The block of the t2-row the point t reads. -/
abbrev xb2 (c : Dev nD) (t : Fin cfg0.N) : Vec Ideal S1x1x2048 .f32 := iblk m c 2 t
/-- The block of the w2-row the point t reads. -/
abbrev xb3 (c : Dev nD) (t : Fin cfg0.N) : Vec Ideal S1x1x2048 .f32 := iblk m c 3 t
/-- What the two outputs' buffers and the two accumulators hold after the point t. -/
abbrev cur (c : Dev nD) (t : Fin cfg0.N) : Vec Ideal S1x1024x1 .f32 × Vec Ideal S1x1x8192 .f32 × Vec Ideal S1024x1 .f32 × Vec Ideal S1x8192 .f32 := outsAt0 m c t.val t.isLt
/-- The row-sum accumulator as the point before t left it. -/
abbrev prev1 (c : Dev nD) (t : Fin cfg0.N) : Vec Ideal S1024x1 .f32 := (outsAt0 m c (t.val - 1) (Nat.lt_of_le_of_lt (Nat.sub_le _ _) t.isLt)).2.2.1
/-- The column-sum accumulator as the point before t left it. -/
abbrev prev2 (c : Dev nD) (t : Fin cfg0.N) : Vec Ideal S1x8192 .f32 := (outsAt0 m c (t.val - 1) (Nat.lt_of_le_of_lt (Nat.sub_le _ _) t.isLt)).2.2.2

/-- The innermost grid coordinate of the point number t is t mod 4 (the grid is 4 by 8 by 4, the last axis fastest). -/
theorem jcoord (t : Fin cfg0.N) : ((grid0.coords t) 2).val = t.val % 4 :=
  (by decide +kernel : ∀ t : Fin grid0.N, ((grid0.coords t) 2).val = t.val % 4) t

/-! ## The row-sum accumulator: reset where the column block is the first, otherwise stepped from the point before -/

theorem s1_reset (c : Dev nD) (t : Fin cfg0.N) (h0 : t.val % 4 = 0) :
    (cur m c t).2.2.1 = k0_pay8 (xb0 m c t) (xb2 m c t) (xb3 m c t) (k0_pay4 (F := Ideal)) := by
  have h2 : ¬t.val % 4 = 3 := by omega
  have h3 : ¬t.val % 32 = 31 := by omega
  unfold cur
  by_cases h1 : t.val % 32 = 0
  · rw [outsAt0_A m c t h0 h1 h2 h3]
    dsimp only
    exact Cert.KernelIdeal.Pieces.sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)
  · rw [outsAt0_D m c t h0 h1 h2 h3]
    dsimp only
    exact Cert.KernelIdeal.Pieces.sD0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (prev2 m c t)

theorem s1_step (c : Dev nD) (t : Fin cfg0.N) (h0 : ¬t.val % 4 = 0) :
    (cur m c t).2.2.1 = k0_pay8 (xb0 m c t) (xb2 m c t) (xb3 m c t) (prev1 m c t) := by
  have h1 : ¬t.val % 32 = 0 := by omega
  unfold cur
  by_cases h2 : t.val % 4 = 3
  · by_cases h3 : t.val % 32 = 31
    · rw [outsAt0_E m c t h0 h1 h2 h3]
      dsimp only
      exact Cert.KernelIdeal.Pieces.sE0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (prev1 m c t) (prev2 m c t)
    · rw [outsAt0_C m c t h0 h1 h2 h3]
      dsimp only
      exact Cert.KernelIdeal.Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (prev1 m c t) (prev2 m c t)
  · have h3 : ¬t.val % 32 = 31 := by omega
    rw [outsAt0_B m c t h0 h1 h2 h3]
    dsimp only
    exact Cert.KernelIdeal.Pieces.sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (prev1 m c t) (prev2 m c t)

/-- Where the column block is the last, output 4's buffer is the finished row-sum accumulator's image. -/
theorem o4 (c : Dev nD) (t : Fin cfg0.N) (h2 : t.val % 4 = 3) :
    (cur m c t).1 = k0_pay2 ((cur m c t).2.2.1) := by
  have h0 : ¬t.val % 4 = 0 := by omega
  have h1 : ¬t.val % 32 = 0 := by omega
  unfold cur
  by_cases h3 : t.val % 32 = 31
  · rw [outsAt0_E m c t h0 h1 h2 h3]
    dsimp only
    exact (Cert.KernelIdeal.Pieces.oE4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (prev1 m c t) (prev2 m c t)).trans
      (congrArg k0_pay2 (Cert.KernelIdeal.Pieces.sE0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (prev1 m c t) (prev2 m c t)).symm)
  · rw [outsAt0_C m c t h0 h1 h2 h3]
    dsimp only
    exact (Cert.KernelIdeal.Pieces.oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (prev1 m c t) (prev2 m c t)).trans
      (congrArg k0_pay2 (Cert.KernelIdeal.Pieces.sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (prev1 m c t) (prev2 m c t)).symm)

/-! ## The column-sum accumulator: a point rewrites the stretch of 2048 positions of its column block and leaves the rest -/

theorem s2_reset_hit (c : Dev nD) (t : Fin cfg0.N) (h1 : t.val % 32 = 0) (n : Fin 8192) (q : Fin 2048) (hn : n.val = t.val % 4 * 2048 + q.val) :
    ∃ a : Vec Ideal S1x2048 .f32, a (ix2 0 q) = k0_pay5 (F := Ideal) (ix2 0 n) ∧ (cur m c t).2.2.2 (ix2 0 n) = k0_pay1 (k0_pay6 (xb1 m c t)) (k0_pay7 (xb0 m c t) (xb2 m c t)) a (ix2 0 q) := by
  have h0 : t.val % 4 = 0 := by omega
  have h2 : ¬t.val % 4 = 3 := by omega
  have h3 : ¬t.val % 32 = 31 := by omega
  have hn' : n.val = ((grid0.coords t) 2).val * 2048 + q.val := by rw [jcoord t]; exact hn
  unfold cur
  rw [outsAt0_A m c t h0 h1 h2 h3]
  dsimp only
  exact Cert.KernelIdeal.Pieces.sA1_hit (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) n q hn'

theorem s2_reset_miss (c : Dev nD) (t : Fin cfg0.N) (h1 : t.val % 32 = 0) (n : Fin 8192) (hn : n.val / 2048 ≠ t.val % 4) :
    (cur m c t).2.2.2 (ix2 0 n) = k0_pay5 (F := Ideal) (ix2 0 n) := by
  have h0 : t.val % 4 = 0 := by omega
  have h2 : ¬t.val % 4 = 3 := by omega
  have h3 : ¬t.val % 32 = 31 := by omega
  have hn' : n.val / 2048 ≠ ((grid0.coords t) 2).val := by rw [jcoord t]; exact hn
  unfold cur
  rw [outsAt0_A m c t h0 h1 h2 h3]
  dsimp only
  exact Cert.KernelIdeal.Pieces.sA1_miss (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) n hn'

theorem s2_step_hit (c : Dev nD) (t : Fin cfg0.N) (h1 : ¬t.val % 32 = 0) (n : Fin 8192) (q : Fin 2048) (hn : n.val = t.val % 4 * 2048 + q.val) :
    ∃ a : Vec Ideal S1x2048 .f32, a (ix2 0 q) = prev2 m c t (ix2 0 n) ∧ (cur m c t).2.2.2 (ix2 0 n) = k0_pay1 (k0_pay6 (xb1 m c t)) (k0_pay7 (xb0 m c t) (xb2 m c t)) a (ix2 0 q) := by
  have hn' : n.val = ((grid0.coords t) 2).val * 2048 + q.val := by rw [jcoord t]; exact hn
  unfold cur
  by_cases h0 : t.val % 4 = 0
  · have h2 : ¬t.val % 4 = 3 := by omega
    have h3 : ¬t.val % 32 = 31 := by omega
    rw [outsAt0_D m c t h0 h1 h2 h3]
    dsimp only
    exact Cert.KernelIdeal.Pieces.sD1_hit (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (prev2 m c t) n q hn'
  · by_cases h2 : t.val % 4 = 3
    · by_cases h3 : t.val % 32 = 31
      · rw [outsAt0_E m c t h0 h1 h2 h3]
        dsimp only
        exact Cert.KernelIdeal.Pieces.sE1_hit (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (prev1 m c t) (prev2 m c t) n q hn'
      · rw [outsAt0_C m c t h0 h1 h2 h3]
        dsimp only
        exact Cert.KernelIdeal.Pieces.sC1_hit (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (prev1 m c t) (prev2 m c t) n q hn'
    · have h3 : ¬t.val % 32 = 31 := by omega
      rw [outsAt0_B m c t h0 h1 h2 h3]
      dsimp only
      exact Cert.KernelIdeal.Pieces.sB1_hit (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (prev1 m c t) (prev2 m c t) n q hn'

theorem s2_step_miss (c : Dev nD) (t : Fin cfg0.N) (h1 : ¬t.val % 32 = 0) (n : Fin 8192) (hn : n.val / 2048 ≠ t.val % 4) :
    (cur m c t).2.2.2 (ix2 0 n) = prev2 m c t (ix2 0 n) := by
  have hn' : n.val / 2048 ≠ ((grid0.coords t) 2).val := by rw [jcoord t]; exact hn
  unfold cur
  by_cases h0 : t.val % 4 = 0
  · have h2 : ¬t.val % 4 = 3 := by omega
    have h3 : ¬t.val % 32 = 31 := by omega
    rw [outsAt0_D m c t h0 h1 h2 h3]
    dsimp only
    exact Cert.KernelIdeal.Pieces.sD1_miss (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (prev2 m c t) n hn'
  · by_cases h2 : t.val % 4 = 3
    · by_cases h3 : t.val % 32 = 31
      · rw [outsAt0_E m c t h0 h1 h2 h3]
        dsimp only
        exact Cert.KernelIdeal.Pieces.sE1_miss (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (prev1 m c t) (prev2 m c t) n hn'
      · rw [outsAt0_C m c t h0 h1 h2 h3]
        dsimp only
        exact Cert.KernelIdeal.Pieces.sC1_miss (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (prev1 m c t) (prev2 m c t) n hn'
    · have h3 : ¬t.val % 32 = 31 := by omega
      rw [outsAt0_B m c t h0 h1 h2 h3]
      dsimp only
      exact Cert.KernelIdeal.Pieces.sB1_miss (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (iblk m c 2 t) (iblk m c 3 t) (prev1 m c t) (prev2 m c t) n hn'

/-- At the last point of a batch, output 5's buffer is the finished column-sum accumulator's image. -/
theorem o5 (c : Dev nD) (t : Fin cfg0.N) (h3 : t.val % 32 = 31) :
    (cur m c t).2.1 = k0_pay3 ((cur m c t).2.2.2) := by
  have h0 : ¬t.val % 4 = 0 := by omega
  have h1 : ¬t.val % 32 = 0 := by omega
  have h2 : t.val % 4 = 3 := by omega
  unfold cur
  rw [outsAt0_E m c t h0 h1 h2 h3]
  dsimp only
  exact Cert.KernelIdeal.Pieces.oE5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (prev1 m c t) (prev2 m c t)

end Cert.KernelIdeal.CaseForms

end
-- ==== Proof.Invariant.lean ====
/-
  What the kernel's two carried accumulators hold after every grid point, by induction on the point, and from it what the
  two outputs' blocks hold where they are written back.

  At point n = 32 b + 4 i + j the body forms the tile tanh (m1[b, 1024 i + r] * t2[b, 2048 j + q]) and
    * adds to the S1 accumulator's row r the lane sum over q of tile[r, q] * w2[b, 2048 j + q]
      (from zero when j = 0), so after the point it holds the part of S1[b, 1024 i + r] over the first 2048 (j + 1)
      columns;
    * adds to columns 2048 j + q of the S2 accumulator the sum over r of tile[r, q] * w1[b, 1024 i + r]
      (all columns from zero at the first point of the batch), so after the point column k holds the part of S2[b, k]
      over the first 1024 (i + 1) rows if k's column block is at most j, else over the first 1024 i rows.
  Output 4's block is the S1 accumulator where j = 3; output 5's block is the S2 accumulator at the batch's last point.
-/
import proofs.«122485_j36644660969672_1_alg».proof.Proof.Gen.KernelIdeal.Frame
import proofs.«122485_j36644660969672_1_alg».proof.Proof.Spec
import proofs.«122485_j36644660969672_1_alg».proof.Proof.Steps
import proofs.«122485_j36644660969672_1_alg».proof.Proof.Payload
import proofs.«122485_j36644660969672_1_alg».proof.Proof.Blocks
import proofs.«122485_j36644660969672_1_alg».proof.Proof.CaseForms
import Idealize.ShloMosaic.Lib.ValueIdx

noncomputable section

open scoped BigOperators

namespace Cert.KernelIdeal.Invariant

open Idealize.ShloMosaic Idealize.ShloMosaic.ValueIdx Idealize.ShloMosaic.TcCoe Idealize.SL.Sem
open Cert.KernelIdeal Cert.KernelIdeal.Gen Cert.Spec
open Cert.KernelIdeal.CaseForms Cert.KernelIdeal.Blocks Cert.KernelIdeal.Payload

variable (m : (ℓ : Loc nD τ sig) → Buf (Elt Ideal) ℓ)

/-- The stretch of 2048 columns a point adds to row r of the S1 accumulator, read through the point's blocks. -/
theorem stretch1 (c : Dev nD) (t : Fin cfg0.N) (r : Fin 1024) :
    (∑ q : Fin 2048, Ideal.tanh (xb0 m c t (ix3 0 r 0) * xb2 m c t (ix3 0 0 q)) * xb3 m c t (ix3 0 0 q))
      = ∑ q : Fin 2048, rowTerm (arrM1 m c) (arrT2 m c) (arrW2 m c) (bOf t.val) (iOf t.val * 1024 + r.val)
          (jOf t.val * 2048 + q.val) := by
  refine Finset.sum_congr rfl fun q _ => ?_
  unfold rowTerm cell
  rw [show xb0 m c t (ix3 0 r 0) = _ from blk0 m c t r, show xb2 m c t (ix3 0 0 q) = _ from blk2 m c t q,
    show xb3 m c t (ix3 0 0 q) = _ from blk3 m c t q]

/-- The stretch of 1024 rows a point adds to column k = 2048 j + q of the S2 accumulator, read through its blocks. -/
theorem stretch2 (c : Dev nD) (t : Fin cfg0.N) (k : ℕ) (q : Fin 2048) (hk : k = jOf t.val * 2048 + q.val) :
    (∑ r : Fin 1024, Ideal.tanh (xb0 m c t (ix3 0 r 0) * xb2 m c t (ix3 0 0 q)) * xb1 m c t (ix3 0 r 0))
      = ∑ r : Fin 1024, colTerm (arrM1 m c) (arrW1 m c) (arrT2 m c) (bOf t.val) (iOf t.val * 1024 + r.val) k := by
  subst hk
  refine Finset.sum_congr rfl fun r _ => ?_
  unfold colTerm cell
  rw [show xb0 m c t (ix3 0 r 0) = _ from blk0 m c t r, show xb2 m c t (ix3 0 0 q) = _ from blk2 m c t q,
    show xb1 m c t (ix3 0 r 0) = _ from blk1 m c t r]

/-- What the two accumulators hold after point n. -/
def Holds (c : Dev nD) (n : ℕ) (h : n < cfg0.N) : Prop :=
  (∀ r : Fin 1024, ((outsAt0 m c n h).2.2.1 : Vec Ideal S1024x1 .f32) (ix2 r 0)
      = acc1 (arrM1 m c) (arrT2 m c) (arrW2 m c) n r.val)
  ∧ (∀ k : Fin 8192, ((outsAt0 m c n h).2.2.2 : Vec Ideal S1x8192 .f32) (ix2 0 k)
      = acc2 (arrM1 m c) (arrW1 m c) (arrT2 m c) n k.val)

/-- One point: from what the point before left (if there is one) to what this point leaves. -/
theorem holds_step (c : Dev nD) (t : Fin cfg0.N)
    (hp : t.val ≠ 0 → Holds m c (t.val - 1) (Nat.lt_of_le_of_lt (Nat.sub_le _ _) t.isLt)) : Holds m c t.val t.isLt := by
  refine ⟨fun r => ?_, fun k => ?_⟩
  · -- the S1 accumulator
    show (cur m c t).2.2.1 (ix2 r 0) = _
    by_cases h0 : t.val % 4 = 0
    · rw [s1_reset m c t h0, pay8_apply, pay4_apply, stretch1 m c t r, acc1_reset _ _ _ _ _ h0]
    · rw [s1_step m c t h0, pay8_apply, stretch1 m c t r, acc1_step _ _ _ _ _ h0]
      exact congrArg (· + _) ((hp (by omega)).1 r)
  · -- the S2 accumulator
    show (cur m c t).2.2.2 (ix2 0 k) = _
    have hq : k.val % 2048 < 2048 := Nat.mod_lt _ (by norm_num)
    by_cases h1 : t.val % 32 = 0
    · by_cases hk : k.val / 2048 = t.val % 4
      · obtain ⟨a, ha, hv⟩ := s2_reset_hit m c t h1 k ⟨k.val % 2048, hq⟩ (by show k.val = t.val % 4 * 2048 + k.val % 2048; omega)
        rw [hv, pay1_apply, ha, pay5_apply,
          stretch2 m c t k.val ⟨k.val % 2048, hq⟩ (by show k.val = t.val % 4 * 2048 + k.val % 2048; omega),
          acc2_reset_hit _ _ _ _ _ h1 hk]
      · rw [s2_reset_miss m c t h1 k hk, pay5_apply, acc2_reset_miss _ _ _ _ _ h1 hk]
    · by_cases hk : k.val / 2048 = t.val % 4
      · obtain ⟨a, ha, hv⟩ := s2_step_hit m c t h1 k ⟨k.val % 2048, hq⟩ (by show k.val = t.val % 4 * 2048 + k.val % 2048; omega)
        rw [hv, pay1_apply, ha,
          stretch2 m c t k.val ⟨k.val % 2048, hq⟩ (by show k.val = t.val % 4 * 2048 + k.val % 2048; omega),
          acc2_step_hit _ _ _ _ _ h1 hk]
        exact congrArg (· + _) ((hp (by omega)).2 k)
      · rw [s2_step_miss m c t h1 k hk, acc2_step_miss _ _ _ _ _ h1 hk k.isLt]
        exact (hp (by omega)).2 k

/-- Every point, by induction on the point. -/
theorem holds (c : Dev nD) : ∀ (n : ℕ) (h : n < cfg0.N), Holds m c n h
  | 0, h => holds_step m c ⟨0, h⟩ (fun h0 => absurd rfl h0)
  | n + 1, h => holds_step m c ⟨n + 1, h⟩ (fun _ => holds c n (Nat.lt_of_succ_lt h))

/-- Output 4's block where it is written back (column block 3): the whole of S1 on the block's rows. -/
theorem out4_eq (c : Dev nD) (t : Fin cfg0.N) (h2 : t.val % 4 = 3) (r : Fin 1024) :
    ((outsAt0 m c t.val t.isLt).1 : Vec Ideal S1x1024x1 .f32) (ix3 0 r 0)
      = rowSum (arrM1 m c) (arrT2 m c) (arrW2 m c) (bOf t.val) (iOf t.val * 1024 + r.val) 8192 := by
  show (cur m c t).1 (ix3 0 r 0) = _
  rw [o4 m c t h2, pay2_apply]
  exact ((holds m c t.val t.isLt).1 r).trans (acc1_last _ _ _ _ _ h2)

/-- Output 5's block where it is written back (the batch's last point): the whole of S2 on the batch's row. -/
theorem out5_eq (c : Dev nD) (t : Fin cfg0.N) (h3 : t.val % 32 = 31) (k : Fin 8192) :
    ((outsAt0 m c t.val t.isLt).2.1 : Vec Ideal S1x1x8192 .f32) (ix3 0 0 k)
      = colSum (arrM1 m c) (arrW1 m c) (arrT2 m c) (bOf t.val) k.val 8192 := by
  show (cur m c t).2.1 (ix3 0 0 k) = _
  rw [o5 m c t h3, pay3_apply]
  exact ((holds m c t.val t.isLt).2 k).trans (acc2_last _ _ _ _ _ h3 k.isLt)

end Cert.KernelIdeal.Invariant

end
-- ==== Proof.Final.lean ====
/-
  From the blocks the grid points write back to the two output arrays as wholes.

  The grid has 128 points, point number t = 32 b + 4 i + j with batch b < 4, row block i < 8, column block j < 4.
  The first output, of shape [4, 8192, 1], is written back in blocks [1, 1024, 1]: the points with t ≡ 3 (mod 4)
  write the block at block index (b, i, 0), that is the entries (b, 1024 i + r, 0) for r < 1024. These 32 blocks
  tile the array: entry (b, n, 0) lies in the block of the point 32 b + 4 (n / 1024) + 3, at r = n mod 1024.
  The second output, of shape [4, 1, 8192], is written back in blocks [1, 1, 8192]: the points with t ≡ 31 (mod 32)
  write the block at block index (b, 0, 0), a whole row; entry (b, 0, k) lies in the block of the point 32 b + 31.

  So if at every point that writes back, the block it leaves is the matching block of one function g of a batch and
  a position, the array after the last point is g at every entry: an entry is written by exactly the points whose
  block holds it, each of them writes g there, and every entry is held by some block.
-/
import proofs.«122485_j36644660969672_1_alg».proof.Proof.Gen.KernelIdeal.Frame
import proofs.«122485_j36644660969672_1_alg».proof.Proof.Spec
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-! ## The first output: blocks [1, 1024, 1] at block index (b, i, 0) -/

/-- The block of the first output at grid point t sits at block index (t / 32, t / 4 mod 8, 0). -/
theorem idx4 : ∀ t : Fin cfg0.N, win0_4.index t (0 : Fin 3) = t.val / 32 ∧ win0_4.index t (1 : Fin 3) = t.val / 4 % 8 ∧ win0_4.index t (2 : Fin 3) = 0 :=
  (by decide +kernel : ∀ t : Fin grid0.N, _)

/-- What a point ≡ 3 (mod 4) writes back to the first output is the block of g at batch t / 32, rows 1024 (t / 4 mod 8) + r:
    the block's entry (0, r, 0) is the array's entry (b, 1024 i + r, 0), a block's coordinate being its block index times
    the block's extent plus the coordinate inside the block. -/
theorem flushed4 (c : Dev nD) (g : Fin 4 → ℕ → EReal)
    (h : ∀ t : Fin cfg0.N, t.val % 4 = 3 → ∀ r : Fin 1024,
      ((outsAt0 m c t.val t.isLt).1 : Vec Ideal S1x1024x1 .f32) (ix3 0 r 0) = g (Cert.Spec.bOf t.val) (Cert.Spec.iOf t.val * 1024 + r.val))
    (t : Fin cfg0.N) (hf : (cfg0.win 4).flush t = true) :
    (dats m 0 c).flushed 4 t = ((cfg0.win 4).blk t).view.read (Elt Ideal) (fun y : Cert.Spec.Col.Idx => g (y 0) (y 1).val) := by
  have h3 : t.val % 4 = 3 := (flush0_4 t).mp hf
  have hN : t.val < 128 := lt_of_lt_of_eq t.isLt (show cfg0.N = 128 from N_0)
  obtain ⟨e0, e1, e2⟩ := idx4 t
  show (cfg0.win 4).cut (grid0.coords t) ((dats m 0 c).after 4 t) = _
  rw [after0_4]
  funext j
  have hj0 : (j 0).val < 1 := (j 0).isLt
  have hj1 : (j 1).val < 1024 := (j 1).isLt
  have hj2 : (j 2).val < 1 := (j 2).isLt
  have hx : (cfg0.win 4).xinj (grid0.coords t) j = (ix3 0 ⟨(j 1).val, hj1⟩ 0 : S1x1024x1.Idx) := by
    funext a; apply Fin.ext
    match a with
    | ⟨0, _⟩ => show (j 0).val = 0; omega
    | ⟨1, _⟩ => rfl
    | ⟨2, _⟩ => show (j 2).val = 0; omega
  have hb : ((cfg0.win 4).blk t).view.emb j 0 = Cert.Spec.bOf t.val := by
    apply Fin.ext
    show win0_4.index t (0 : Fin 3) * 1 + 1 * (j 0).val = t.val / 32 % 4
    omega
  have hi : (((cfg0.win 4).blk t).view.emb j 1).val = Cert.Spec.iOf t.val * 1024 + (j 1).val := by
    show win0_4.index t (1 : Fin 3) * 1024 + 1 * (j 1).val = t.val / 4 % 8 * 1024 + (j 1).val
    omega
  show ((outsAt0 m c t.val t.isLt).1 : Vec Ideal S1x1024x1 .f32) ((cfg0.win 4).xinj (grid0.coords t) j)
    = g (((cfg0.win 4).blk t).view.emb j 0) (((cfg0.win 4).blk t).view.emb j 1).val
  rw [hx, hb, hi]
  exact h t h3 ⟨(j 1).val, hj1⟩

/-- Array index y of the first output lies in the block written back at point 32 (y 0) + 4 (y 1 / 1024) + 3. -/
theorem cover4 (y : Cert.Spec.Col.Idx) :
    ∃ t : Fin cfg0.N, (cfg0.win 4).flush t = true ∧ y ∈ ((cfg0.win 4).blk t).view.set := by
  have hy0 : (y 0).val < 4 := (y 0).isLt
  have hy1 : (y 1).val < 8192 := (y 1).isLt
  have hy2 : (y 2).val < 1 := (y 2).isLt
  have hlt : 32 * (y 0).val + 4 * ((y 1).val / 1024) + 3 < cfg0.N := lt_of_lt_of_eq (by omega) (show cfg0.N = 128 from N_0).symm
  obtain ⟨e0, e1, e2⟩ := idx4 ⟨32 * (y 0).val + 4 * ((y 1).val / 1024) + 3, hlt⟩
  refine ⟨⟨32 * (y 0).val + 4 * ((y 1).val / 1024) + 3, hlt⟩, (flush0_4 _).mpr (by show (32 * (y 0).val + 4 * ((y 1).val / 1024) + 3) % 4 = 3; omega), ?_⟩
  show y ∈ ((View.whole main_v13_0).slice (win0_4.rect ⟨32 * (y 0).val + 4 * ((y 1).val / 1024) + 3, hlt⟩)).set
  rw [View.set_slice_whole, Rect.mem_set_unit]
  intro a
  match a with
  | ⟨0, _⟩ =>
    show win0_4.index ⟨32 * (y 0).val + 4 * ((y 1).val / 1024) + 3, hlt⟩ (0 : Fin 3) * 1 ≤ (y 0).val
      ∧ (y 0).val < win0_4.index ⟨32 * (y 0).val + 4 * ((y 1).val / 1024) + 3, hlt⟩ (0 : Fin 3) * 1 + 1
    rw [e0]; dsimp only; omega
  | ⟨1, _⟩ =>
    show win0_4.index ⟨32 * (y 0).val + 4 * ((y 1).val / 1024) + 3, hlt⟩ (1 : Fin 3) * 1024 ≤ (y 1).val
      ∧ (y 1).val < win0_4.index ⟨32 * (y 0).val + 4 * ((y 1).val / 1024) + 3, hlt⟩ (1 : Fin 3) * 1024 + 1024
    rw [e1]; dsimp only; omega
  | ⟨2, _⟩ =>
    show win0_4.index ⟨32 * (y 0).val + 4 * ((y 1).val / 1024) + 3, hlt⟩ (2 : Fin 3) * 1 ≤ (y 2).val
      ∧ (y 2).val < win0_4.index ⟨32 * (y 0).val + 4 * ((y 1).val / 1024) + 3, hlt⟩ (2 : Fin 3) * 1 + 1
    rw [e2]; omega

/-- The first output array after the run: entry (b, n, 0) is g b n, once every flushing point leaves g's block. -/
theorem final4 (c : Dev nD) (g : Fin 4 → ℕ → EReal)
    (h : ∀ t : Fin cfg0.N, t.val % 4 = 3 → ∀ r : Fin 1024,
      ((outsAt0 m c t.val t.isLt).1 : Vec Ideal S1x1024x1 .f32) (ix3 0 r 0) = g (Cert.Spec.bOf t.val) (Cert.Spec.iOf t.val * 1024 + r.val)) :
    (dats m 0 c).arrAt 4 cfg0.N = (fun y : Cert.Spec.Col.Idx => g (y 0) (y 1).val) :=
  (dats m 0 c).arrAt_eq_of_cover 4 (fun y : Cert.Spec.Col.Idx => g (y 0) (y 1).val) (flushed4 m c g h) cover4

/-! ## The second output: blocks [1, 1, 8192] at block index (b, 0, 0) -/

/-- The block of the second output at grid point t sits at block index (t / 32, 0, 0). -/
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, _)

/-- What a point ≡ 31 (mod 32) writes back to the second output is the whole row of its batch of g. -/
theorem flushed5 (c : Dev nD) (g : Fin 4 → ℕ → EReal)
    (h : ∀ t : Fin cfg0.N, t.val % 32 = 31 → ∀ k : Fin 8192,
      ((outsAt0 m c t.val t.isLt).2.1 : Vec Ideal S1x1x8192 .f32) (ix3 0 0 k) = g (Cert.Spec.bOf t.val) k.val)
    (t : Fin cfg0.N) (hf : (cfg0.win 5).flush t = true) :
    (dats m 0 c).flushed 5 t = ((cfg0.win 5).blk t).view.read (Elt Ideal) (fun y : Cert.Spec.Row.Idx => g (y 0) (y 2).val) := by
  have h31 : t.val % 32 = 31 := (flush0_5 t).mp hf
  have hN : t.val < 128 := lt_of_lt_of_eq t.isLt (show cfg0.N = 128 from N_0)
  obtain ⟨e0, e1, e2⟩ := idx5 t
  show (cfg0.win 5).cut (grid0.coords t) ((dats m 0 c).after 5 t) = _
  rw [after0_5]
  funext j
  have hj0 : (j 0).val < 1 := (j 0).isLt
  have hj1 : (j 1).val < 1 := (j 1).isLt
  have hj2 : (j 2).val < 8192 := (j 2).isLt
  have hx : (cfg0.win 5).xinj (grid0.coords t) j = (ix3 0 0 ⟨(j 2).val, hj2⟩ : S1x1x8192.Idx) := by
    funext a; apply Fin.ext
    match a with
    | ⟨0, _⟩ => show (j 0).val = 0; omega
    | ⟨1, _⟩ => show (j 1).val = 0; omega
    | ⟨2, _⟩ => rfl
  have hb : ((cfg0.win 5).blk t).view.emb j 0 = Cert.Spec.bOf t.val := by
    apply Fin.ext
    show win0_5.index t (0 : Fin 3) * 1 + 1 * (j 0).val = t.val / 32 % 4
    omega
  have hk : (((cfg0.win 5).blk t).view.emb j 2).val = (j 2).val := by
    show win0_5.index t (2 : Fin 3) * 8192 + 1 * (j 2).val = (j 2).val
    omega
  show ((outsAt0 m c t.val t.isLt).2.1 : Vec Ideal S1x1x8192 .f32) ((cfg0.win 5).xinj (grid0.coords t) j)
    = g (((cfg0.win 5).blk t).view.emb j 0) (((cfg0.win 5).blk t).view.emb j 2).val
  rw [hx, hb, hk]
  exact h t h31 ⟨(j 2).val, hj2⟩

/-- Array index y of the second output lies in the block written back at point 32 (y 0) + 31. -/
theorem cover5 (y : Cert.Spec.Row.Idx) :
    ∃ t : Fin cfg0.N, (cfg0.win 5).flush t = true ∧ y ∈ ((cfg0.win 5).blk t).view.set := by
  have hy0 : (y 0).val < 4 := (y 0).isLt
  have hy1 : (y 1).val < 1 := (y 1).isLt
  have hy2 : (y 2).val < 8192 := (y 2).isLt
  have hlt : 32 * (y 0).val + 31 < cfg0.N := lt_of_lt_of_eq (by omega) (show cfg0.N = 128 from N_0).symm
  obtain ⟨e0, e1, e2⟩ := idx5 ⟨32 * (y 0).val + 31, hlt⟩
  refine ⟨⟨32 * (y 0).val + 31, hlt⟩, (flush0_5 _).mpr (by show (32 * (y 0).val + 31) % 32 = 31; omega), ?_⟩
  show y ∈ ((View.whole main_v13_1).slice (win0_5.rect ⟨32 * (y 0).val + 31, hlt⟩)).set
  rw [View.set_slice_whole, Rect.mem_set_unit]
  intro a
  match a with
  | ⟨0, _⟩ =>
    show win0_5.index ⟨32 * (y 0).val + 31, hlt⟩ (0 : Fin 3) * 1 ≤ (y 0).val
      ∧ (y 0).val < win0_5.index ⟨32 * (y 0).val + 31, hlt⟩ (0 : Fin 3) * 1 + 1
    rw [e0]; dsimp only; omega
  | ⟨1, _⟩ =>
    show win0_5.index ⟨32 * (y 0).val + 31, hlt⟩ (1 : Fin 3) * 1 ≤ (y 1).val
      ∧ (y 1).val < win0_5.index ⟨32 * (y 0).val + 31, hlt⟩ (1 : Fin 3) * 1 + 1
    rw [e1]; omega
  | ⟨2, _⟩ =>
    show win0_5.index ⟨32 * (y 0).val + 31, hlt⟩ (2 : Fin 3) * 8192 ≤ (y 2).val
      ∧ (y 2).val < win0_5.index ⟨32 * (y 0).val + 31, hlt⟩ (2 : Fin 3) * 8192 + 8192
    rw [e2]; omega

/-- The second output array after the run: entry (b, 0, k) is g b k, once every flushing point leaves g's row. -/
theorem final5 (c : Dev nD) (g : Fin 4 → ℕ → EReal)
    (h : ∀ t : Fin cfg0.N, t.val % 32 = 31 → ∀ k : Fin 8192,
      ((outsAt0 m c t.val t.isLt).2.1 : Vec Ideal S1x1x8192 .f32) (ix3 0 0 k) = g (Cert.Spec.bOf t.val) k.val) :
    (dats m 0 c).arrAt 5 cfg0.N = (fun y : Cert.Spec.Row.Idx => g (y 0) (y 2).val) :=
  (dats m 0 c).arrAt_eq_of_cover 5 (fun y : Cert.Spec.Row.Idx => g (y 0) (y 2).val) (flushed5 m c g h) cover5

end Cert.KernelIdeal.Final

end
-- ==== Proof.KernelRun.lean ====
/-
  The kernel program's run, read at its two results, given what the region's two output arrays hold when it is left.

  After the region the program adds each output array to the matching weighted input, takes tanh, scales and shifts by
  two scalars (the second result first laid as a column), and closes each with the shared softmax-and-weight stretch.
  Every buffer these lines read is either one of the region's six arrays — an input array still as the region found it,
  an output array at its final contents — or a buffer the region never touches, still as launched.
-/
import proofs.«122485_j36644660969672_1_alg».proof.Proof.Gen.KernelIdeal.Frame
import proofs.«122485_j36644660969672_1_alg».proof.Proof.Tail
import proofs.«122485_j36644660969672_1_alg».proof.Proof.Spec
import Idealize.ShloMosaic.Lib.StableHlo.Run
import Idealize.ShloMosaic.Lib.Pipeline.Value
import Idealize.ShloMosaic.Lib.ValueIdx

-- the long axis has 8192 positions: comparing two spellings of one term walks literals of that size
set_option maxRecDepth 65536

noncomputable section

namespace Cert.KernelIdeal.KernelRun

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## What the lines after the region find -/

/-- What core c's buffers hold when the region is left: the six arrays as the region leaves them, every other buffer
    as the region found it. -/
abbrev exitVal (c : Dev nD) : Valuation τ sig (Elt Ideal) :=
  Pipeline.withArrays (cfgs 0).spec c (V0 m c) (fun w => (dats m 0 c).arrAt w (cfgs 0).N)

/-- The weighted first input is an input array of the region: left as found. -/
theorem exit_v3 (c : Dev nD) : exitVal m c (Proc.devRef .tc main_v3) = V m c main_v3 :=
  (Pipeline.withArrays_arr spec0 launch0.win.arr_inj c _ _ 1).trans (((dats m 0 c).arrAt_in 1 rfl _).trans (A_eq m c 1))

/-- The weighted second input, laid as rows, is an input array of the region: left as found. -/
theorem exit_v12 (c : Dev nD) : exitVal m c (Proc.devRef .tc main_v12) = V m c main_v12 :=
  (Pipeline.withArrays_arr spec0 launch0.win.arr_inj c _ _ 3).trans (((dats m 0 c).arrAt_in 3 rfl _).trans (A_eq m c 3))

/-- The first argument is an input array of the region, written by no line before it: still as launched. -/
theorem exit_arg0 (c : Dev nD) : exitVal m c (Proc.devRef .tc main_arg0) = m ((c.tc : Thread nD τ).loc main_arg0) :=
  (Pipeline.withArrays_arr spec0 launch0.win.arr_inj c _ _ 0).trans
    (((dats m 0 c).arrAt_in 0 rfl _).trans ((A_eq m c 0).trans (V_main_arg0 m c)))

/-- The first output array at its final contents. -/
theorem exit_out4 (c : Dev nD) : exitVal m c (Proc.devRef .tc main_v13_0) = (dats m 0 c).arrAt 4 cfg0.N :=
  Pipeline.withArrays_arr spec0 launch0.win.arr_inj c _ _ 4

/-- The second output array at its final contents. -/
theorem exit_out5 (c : Dev nD) : exitVal m c (Proc.devRef .tc main_v13_1) = (dats m 0 c).arrAt 5 cfg0.N :=
  Pipeline.withArrays_arr spec0 launch0.win.arr_inj c _ _ 5

/-- The second argument is no array of the region and no line before the region writes it: still as launched. -/
theorem exit_arg1 (c : Dev nD) : exitVal m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)

/-- The four closing scalars likewise. -/
theorem exit_arg8 (c : Dev nD) : exitVal m c (Proc.devRef .tc main_arg8) = m ((c.tc : Thread nD τ).loc main_arg8) :=
  (Pipeline.withArrays_of_ne _ c (V0 m c) _ main_arg8 (by exact (by decide : ∀ w, Pipeline.arrRef spec0 w ≠ main_arg8))).trans (V_main_arg8 m c)
theorem exit_arg9 (c : Dev nD) : exitVal m c (Proc.devRef .tc main_arg9) = m ((c.tc : Thread nD τ).loc main_arg9) :=
  (Pipeline.withArrays_of_ne _ c (V0 m c) _ main_arg9 (by exact (by decide : ∀ w, Pipeline.arrRef spec0 w ≠ main_arg9))).trans (V_main_arg9 m c)
theorem exit_arg10 (c : Dev nD) : exitVal m c (Proc.devRef .tc main_arg10) = m ((c.tc : Thread nD τ).loc main_arg10) :=
  (Pipeline.withArrays_of_ne _ c (V0 m c) _ main_arg10 (by exact (by decide : ∀ w, Pipeline.arrRef spec0 w ≠ main_arg10))).trans (V_main_arg10 m c)
theorem exit_arg11 (c : Dev nD) : exitVal m c (Proc.devRef .tc main_arg11) = m ((c.tc : Thread nD τ).loc main_arg11) :=
  (Pipeline.withArrays_of_ne _ c (V0 m c) _ main_arg11 (by exact (by decide : ∀ w, Pipeline.arrRef spec0 w ≠ main_arg11))).trans (V_main_arg11 m c)

/-! ## The two logits, entry by entry -/

/-- The first logits at an entry: tanh of the sum of the two columns there, times the one scalar plus the other. -/
theorem logitsCol_apply (Wv Av : FVec Ideal S4x8192x1 .f32) (w b : FVec Ideal S_ .f32) (y : S4x8192x1.Idx) :
    addf (F := Ideal) (φ := .f32) (mulf (F := Ideal) (φ := .f32) (Host.tanh (F := Ideal) (φ := .f32) (addf (F := Ideal) (φ := .f32) Wv Av)) (broadcastInDim S4x8192x1 ![] bcast_S_S4x8192x1 w))
        (broadcastInDim S4x8192x1 ![] bcast_S_S4x8192x1 b) y
      = Ideal.tanh (Wv y + Av y) * w ix0 + b ix0 := by
  show Ideal.tanh (Wv y + Av y) * broadcastInDim S4x8192x1 ![] bcast_S_S4x8192x1 w y + broadcastInDim S4x8192x1 ![] bcast_S_S4x8192x1 b y = _
  rw [broadcastInDim_apply _ bcast_S_S4x8192x1 w y ix0 (fun a => a.elim0), broadcastInDim_apply _ bcast_S_S4x8192x1 b y ix0 (fun a => a.elim0)]

/-- The second logits at an entry (n, ·) of the column they are laid as: the rows' expression at position n of the row. -/
theorem logitsRowT_apply (Wv Av : FVec Ideal S4x1x8192 .f32) (w b : FVec Ideal S_ .f32) (y : S4x8192x1.Idx) :
    transpose S4x8192x1 [0, 2, 1]
        (addf (F := Ideal) (φ := .f32) (mulf (F := Ideal) (φ := .f32) (Host.tanh (F := Ideal) (φ := .f32) (addf (F := Ideal) (φ := .f32) Wv Av)) (broadcastInDim S4x1x8192 ![] bcast_S_S4x1x8192 w))
          (broadcastInDim S4x1x8192 ![] bcast_S_S4x1x8192 b))
        transposes_S4x1x8192_S4x8192x1_0_2_1 y
      = Ideal.tanh (Wv (ix3 (y 0) 0 (y 1)) + Av (ix3 (y 0) 0 (y 1))) * w ix0 + b ix0 := by
  refine (transpose_apply [0, 2, 1] _ transposes_S4x1x8192_S4x8192x1_0_2_1 y (ix3 (y 0) 0 (y 1)) (fun a => match a with
    | ⟨0, _⟩ => rfl
    | ⟨1, _⟩ => rfl
    | ⟨2, _⟩ => by have h2 : (y 2).val < 1 := (y 2).isLt; show (0 : ℕ) = (y 2).val; omega)).trans ?_
  show Ideal.tanh (Wv (ix3 (y 0) 0 (y 1)) + Av (ix3 (y 0) 0 (y 1))) * broadcastInDim S4x1x8192 ![] bcast_S_S4x1x8192 w (ix3 (y 0) 0 (y 1))
      + broadcastInDim S4x1x8192 ![] bcast_S_S4x1x8192 b (ix3 (y 0) 0 (y 1)) = _
  rw [broadcastInDim_apply _ bcast_S_S4x1x8192 w (ix3 (y 0) 0 (y 1)) ix0 (fun a => a.elim0),
    broadcastInDim_apply _ bcast_S_S4x1x8192 b (ix3 (y 0) 0 (y 1)) ix0 (fun a => a.elim0)]

/-! ## The two results after the lines -/

/-- The first result: the shared closing stretch over the first logits and the first argument, all read where the
    region left them. -/
theorem v50_eq (c : Dev nD) :
    Pipeline.afterTail₀ cfgs (dats m) 0 (V0 m) [hostOps1] c main_v50
      = Cert.Tail.attend
          (addf (F := Ideal) (φ := .f32) (mulf (F := Ideal) (φ := .f32) (Host.tanh (F := Ideal) (φ := .f32)
              (addf (F := Ideal) (φ := .f32) (exitVal m c (Proc.devRef .tc main_v3)) (exitVal m c (Proc.devRef .tc main_v13_0))))
              (broadcastInDim S4x8192x1 ![] bcast_S_S4x8192x1 (exitVal m c (Proc.devRef .tc main_arg8))))
            (broadcastInDim S4x8192x1 ![] bcast_S_S4x8192x1 (exitVal m c (Proc.devRef .tc main_arg9))))
          (exitVal m c (Proc.devRef .tc main_arg0)) := by
  unfold Pipeline.afterTail₀
  show StableHlo.after hostOps1 _ (Proc.devRef .tc main_v50) = _
  after_results_simp
  unfold Cert.Tail.attend
  rfl

/-- The second result: the shared closing stretch over the second logits, laid as a column, and the second argument. -/
theorem v52_eq (c : Dev nD) :
    Pipeline.afterTail₀ cfgs (dats m) 0 (V0 m) [hostOps1] c main_v52
      = Cert.Tail.attend
          (transpose S4x8192x1 [0, 2, 1]
            (addf (F := Ideal) (φ := .f32) (mulf (F := Ideal) (φ := .f32) (Host.tanh (F := Ideal) (φ := .f32)
                (addf (F := Ideal) (φ := .f32) (exitVal m c (Proc.devRef .tc main_v12)) (exitVal m c (Proc.devRef .tc main_v13_1))))
                (broadcastInDim S4x1x8192 ![] bcast_S_S4x1x8192 (exitVal m c (Proc.devRef .tc main_arg10))))
              (broadcastInDim S4x1x8192 ![] bcast_S_S4x1x8192 (exitVal m c (Proc.devRef .tc main_arg11))))
            transposes_S4x1x8192_S4x8192x1_0_2_1)
          (exitVal m c (Proc.devRef .tc main_arg1)) := by
  unfold Pipeline.afterTail₀
  show StableHlo.after hostOps1 _ (Proc.devRef .tc main_v52) = _
  after_results_simp
  unfold Cert.Tail.attend
  rfl

/-! ## The logits as functions of an entry -/

/-- The first logits as a function of the entry, over whatever the four buffers are known to hold. -/
theorem logitsCol_eq {Wv Wv' Av Av' : FVec Ideal S4x8192x1 .f32} {w w' b b' : FVec Ideal S_ .f32}
    (hW : Wv = Wv') (hA : Av = Av') (hw : w = w') (hb : b = b') :
    addf (F := Ideal) (φ := .f32) (mulf (F := Ideal) (φ := .f32) (Host.tanh (F := Ideal) (φ := .f32) (addf (F := Ideal) (φ := .f32) Wv Av)) (broadcastInDim S4x8192x1 ![] bcast_S_S4x8192x1 w))
        (broadcastInDim S4x8192x1 ![] bcast_S_S4x8192x1 b)
      = fun y => Ideal.tanh (Wv' y + Av' y) * w' ix0 + b' ix0 := by
  subst hW hA hw hb
  exact funext fun y => logitsCol_apply Wv Av w b y

/-- The second logits, laid as a column, as a function of the entry, over whatever the four buffers are known to hold. -/
theorem logitsRowT_eq {Wv Wv' Av Av' : FVec Ideal S4x1x8192 .f32} {w w' b b' : FVec Ideal S_ .f32}
    (hW : Wv = Wv') (hA : Av = Av') (hw : w = w') (hb : b = b') :
    transpose S4x8192x1 [0, 2, 1]
        (addf (F := Ideal) (φ := .f32) (mulf (F := Ideal) (φ := .f32) (Host.tanh (F := Ideal) (φ := .f32) (addf (F := Ideal) (φ := .f32) Wv Av)) (broadcastInDim S4x1x8192 ![] bcast_S_S4x1x8192 w))
          (broadcastInDim S4x1x8192 ![] bcast_S_S4x1x8192 b))
        transposes_S4x1x8192_S4x8192x1_0_2_1
      = fun y => Ideal.tanh (Wv' (ix3 (y 0) 0 (y 1)) + Av' (ix3 (y 0) 0 (y 1))) * w' ix0 + b' ix0 := by
  subst hW hA hw hb
  exact funext fun y => logitsRowT_apply Wv Av w b y

/-! ## The run's operands, named at their literal types -/

/-- The weighted first input as the region finds it, a batch of columns over the extended reals. -/
abbrev w1col (c : Dev nD) : Cert.Spec.Col.Idx → EReal := V m c main_v3
/-- The weighted second input as the region finds it, a batch of rows over the extended reals. -/
abbrev w2row (c : Dev nD) : Cert.Spec.Row.Idx → EReal := V m c main_v12
/-- The four closing scalars as launched. -/
abbrev sc8 (c : Dev nD) : EReal := m ((c.tc : Thread nD τ).loc main_arg8) ix0
abbrev sc9 (c : Dev nD) : EReal := m ((c.tc : Thread nD τ).loc main_arg9) ix0
abbrev sc10 (c : Dev nD) : EReal := m ((c.tc : Thread nD τ).loc main_arg10) ix0
abbrev sc11 (c : Dev nD) : EReal := m ((c.tc : Thread nD τ).loc main_arg11) ix0

/-! ## The run -/

/-- Every weakly fair execution of the kernel program terminates; at its end, on every core, the two results are the
    shared closing stretch over the logits built from the weighted inputs as the region found them and the two output
    arrays' final contents A4, A5, and the twelve arguments are as launched. -/
theorem run_results (A4 : Dev nD → Cert.Spec.Col.Idx → EReal) (A5 : Dev nD → Cert.Spec.Row.Idx → EReal)
    (h4 : ∀ c, (dats m 0 c).arrAt 4 cfg0.N = A4 c) (h5 : ∀ c, (dats m 0 c).arrAt 5 cfg0.N = A5 c) :
    θ_run defs (onTc (τ := τ) (main (F := Ideal))) ⟨m, fun _ => 0, ρ⟩ (fun r => ∀ c : Dev nD,
      r.2.mem ((c.tc : Thread nD τ).loc main_v50) = Cert.Tail.attend (fun y => Ideal.tanh (w1col m c y + A4 c y) * sc8 m c + sc9 m c) (m ((c.tc : Thread nD τ).loc main_arg0))
      ∧ r.2.mem ((c.tc : Thread nD τ).loc main_v52) = Cert.Tail.attend (fun y => Ideal.tanh (w2row m c (ix3 (y 0) 0 (y 1)) + A5 c (ix3 (y 0) 0 (y 1))) * sc10 m c + sc11 m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      ((h c).2 main_v50 (Pipeline.mem_restRefs_of main_v50 (by decide) (by decide))).trans ((v50_eq m c).trans
        (congrArg₂ Cert.Tail.attend
          (logitsCol_eq (exit_v3 m c) ((exit_out4 m c).trans (h4 c)) (exit_arg8 m c) (exit_arg9 m c)) (exit_arg0 m c))),
      ((h c).2 main_v52 (Pipeline.mem_restRefs_of main_v52 (by decide) (by decide))).trans ((v52_eq m c).trans
        (congrArg₂ Cert.Tail.attend
          (logitsRowT_eq (exit_v12 m c) ((exit_out5 m c).trans (h5 c)) (exit_arg10 m c) (exit_arg11 m c)) (exit_arg1 m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.KernelRun

end
-- ==== Proof.Result.lean ====
/-
  The kernel program's two results, as functions of its arguments alone.

  The two output arrays of the region end at S1 and S2 of the four arrays the region reads (each output block is
  written back exactly where its accumulator is complete, and those blocks tile the arrays); the host operations after the
  region then form tanh (w1-column + S1) and tanh (w2-row + S2), scale and shift them, and finish both the same way
  (a softmax along the 8192 entries of each batch, times the input column). The three arrays the host computes before
  the region are the inputs scaled and shifted by the scalar arguments.
-/
import proofs.«122485_j36644660969672_1_alg».proof.Proof.Gen.KernelIdeal.Frame
import proofs.«122485_j36644660969672_1_alg».proof.Proof.Spec
import proofs.«122485_j36644660969672_1_alg».proof.Proof.Blocks
import proofs.«122485_j36644660969672_1_alg».proof.Proof.Invariant
import proofs.«122485_j36644660969672_1_alg».proof.Proof.Final
import proofs.«122485_j36644660969672_1_alg».proof.Proof.Tail
import proofs.«122485_j36644660969672_1_alg».proof.Proof.KernelRun

noncomputable section

namespace Cert.KernelIdeal.Result

open Idealize.ShloMosaic Idealize.ShloMosaic.ValueIdx Idealize.ShloMosaic.TcCoe Idealize.SL.Sem
open Cert.KernelIdeal Cert.KernelIdeal.Gen Cert.Spec Cert.KernelIdeal.Blocks

variable (m : (ℓ : Loc nD τ sig) → Buf (Elt Ideal) ℓ) (ρ : Dev nD → PrngReg)

/-- Output 4's array after the region is S1 of the arrays the region reads. -/
theorem final_S1 (c : Dev nD) : (dats m 0 c).arrAt 4 cfg0.N = S1 (arrM1 m c) (arrT2 m c) (arrW2 m c) :=
  Cert.KernelIdeal.Final.final4 m c (fun b n1 => rowSum (arrM1 m c) (arrT2 m c) (arrW2 m c) b n1 8192)
    (fun t h r => Cert.KernelIdeal.Invariant.out4_eq m c t h r)

/-- Output 5's array after the region is S2 of the arrays the region reads. -/
theorem final_S2 (c : Dev nD) : (dats m 0 c).arrAt 5 cfg0.N = S2 (arrM1 m c) (arrW1 m c) (arrT2 m c) :=
  Cert.KernelIdeal.Final.final5 m c (fun b k => colSum (arrM1 m c) (arrW1 m c) (arrT2 m c) b k 8192)
    (fun t h k => Cert.KernelIdeal.Invariant.out5_eq m c t h k)

/-- The four arrays the region reads, from the arguments: m1 itself, m1 scaled and shifted (the w1 column), and m2 laid
    as a row and scaled and shifted twice (the t2 and w2 rows). -/
abbrev inM1 (c : Dev nD) : Col.Idx → EReal := m ((c.tc : Thread nD τ).loc main_arg0)
abbrev inW1 (c : Dev nD) : Col.Idx → EReal :=
  affCol (m ((c.tc : Thread nD τ).loc main_arg0)) (m ((c.tc : Thread nD τ).loc main_arg4) ix0) (m ((c.tc : Thread nD τ).loc main_arg5) ix0)
abbrev inT2 (c : Dev nD) : Row.Idx → EReal :=
  affRowT (m ((c.tc : Thread nD τ).loc main_arg1)) (m ((c.tc : Thread nD τ).loc main_arg2) ix0) (m ((c.tc : Thread nD τ).loc main_arg3) ix0)
abbrev inW2 (c : Dev nD) : Row.Idx → EReal :=
  affRowT (m ((c.tc : Thread nD τ).loc main_arg1)) (m ((c.tc : Thread nD τ).loc main_arg6) ix0) (m ((c.tc : Thread nD τ).loc main_arg7) ix0)

/-- The first result: the first softmax's logits, finished against m1. -/
def out0 (c : Dev nD) : Flat.Idx → EReal :=
  Cert.Tail.attend (logits1 (inM1 m c) (inW1 m c) (inT2 m c) (inW2 m c) (m ((c.tc : Thread nD τ).loc main_arg8) ix0) (m ((c.tc : Thread nD τ).loc main_arg9) ix0))
    (m ((c.tc : Thread nD τ).loc main_arg0))
/-- The second result: the second softmax's logits, finished against m2. -/
def out1 (c : Dev nD) : Flat.Idx → EReal :=
  Cert.Tail.attend (logits2 (inM1 m c) (inW1 m c) (inT2 m c) (inW2 m c) (m ((c.tc : Thread nD τ).loc main_arg10) ix0) (m ((c.tc : Thread nD τ).loc main_arg11) ix0))
    (m ((c.tc : Thread nD τ).loc main_arg1))

/-- Every weakly fair execution of the kernel program ends with its two results at `out0` and `out1` of the arguments,
    the arguments unchanged. -/
theorem run : θ_run defs (onTc (τ := τ) (main (F := Ideal))) ⟨m, fun _ => 0, ρ⟩ (fun r => ∀ c : Dev nD,
      r.2.mem ((c.tc : Thread nD τ).loc main_v50) = out0 m c
      ∧ r.2.mem ((c.tc : Thread nD τ).loc main_v52) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_)
    (Cert.KernelIdeal.KernelRun.run_results m ρ (fun c => S1 (arrM1 m c) (arrT2 m c) (arrW2 m c))
      (fun c => S2 (arrM1 m c) (arrW1 m c) (arrT2 m c)) (final_S1 m) (final_S2 m))
  obtain ⟨h0, h1, hrest⟩ := h c
  have eM1 : arrM1 m c = inM1 m c := arrM1_eq m c
  have eW1 : arrW1 m c = inW1 m c := arrW1_eq m c
  have eT2 : arrT2 m c = inT2 m c := arrT2_eq m c
  have eW2 : arrW2 m c = inW2 m c := arrW2_eq m c
  have eW1' : Cert.KernelIdeal.KernelRun.w1col m c = inW1 m c := eW1
  have eW2' : Cert.KernelIdeal.KernelRun.w2row m c = inW2 m c := eW2
  rw [eW1', eM1, eT2, eW2] at h0
  rw [eW2', eM1, eW1, eT2] at h1
  exact ⟨h0, h1, hrest⟩

end Cert.KernelIdeal.Result

end
-- ==== Proof.lean ====
/-
  The certificate of the kernel against its reference: three frames, the (empty) idealization ledger, and the
  equivalence over the extended reals.

  Both programs compute, per batch, the two weighted sums S1 and S2 of the implicit matrix tanh (m1 ⊗ t2), then
  tanh (w1-column + S1) and tanh (w2-row + S2), scaled and shifted, and finish each with the same softmax-and-scale.
  The kernel forms the sums tile by tile over a grid, carrying two accumulators (Proof/Invariant.lean); the reference forms
  them as two matrix products (Proof/RefLogits.lean). On the extended reals a sum taken in consecutive stretches is the
  whole sum and a product commutes, so the two agree entry by entry with no assumption on the inputs.
-/
import proofs.«122485_j36644660969672_1_alg».proof.Defs
import proofs.«122485_j36644660969672_1_alg».proof.Proof.Gen.Kernel
import proofs.«122485_j36644660969672_1_alg».proof.Proof.Gen.Kernel.Skeleton
import proofs.«122485_j36644660969672_1_alg».proof.Proof.Gen.Kernel.Launch
import proofs.«122485_j36644660969672_1_alg».proof.Proof.Gen.Kernel.Points
import proofs.«122485_j36644660969672_1_alg».proof.Proof.Gen.Kernel.Frame
import proofs.«122485_j36644660969672_1_alg».proof.Proof.Gen.KernelIdeal
import proofs.«122485_j36644660969672_1_alg».proof.Proof.Gen.KernelIdeal.Skeleton
import proofs.«122485_j36644660969672_1_alg».proof.Proof.Gen.KernelIdeal.Launch
import proofs.«122485_j36644660969672_1_alg».proof.Proof.Gen.KernelIdeal.Points
import proofs.«122485_j36644660969672_1_alg».proof.Proof.Gen.KernelIdeal.Frame
import proofs.«122485_j36644660969672_1_alg».proof.Proof.Gen.ReferenceIdeal
import proofs.«122485_j36644660969672_1_alg».proof.Proof.Gen.ReferenceIdeal.Run
import proofs.«122485_j36644660969672_1_alg».proof.Proof.Gen.ReferenceIdeal.Read
import proofs.«122485_j36644660969672_1_alg».proof.Proof.Gen.Pre_finite_inputs
import proofs.«122485_j36644660969672_1_alg».proof.Proof.Spec
import proofs.«122485_j36644660969672_1_alg».proof.Proof.Tail
import proofs.«122485_j36644660969672_1_alg».proof.Proof.RefLogits
import proofs.«122485_j36644660969672_1_alg».proof.Proof.Result
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_k : @Cert.frame_Kernel Cert.Kernel.Gen.facts Cert.Pre_finite_inputs.Gen.facts :=
  fun m ρ _ => Cert.Kernel.Gen.frame m ρ

/-- The idealized kernel runs and keeps its arguments. -/
theorem frame_ki : @Cert.frame_KernelIdeal Cert.KernelIdeal.Gen.facts Cert.Pre_finite_inputs.Gen.facts :=
  fun m ρ _ => Cert.KernelIdeal.Gen.frame m ρ

/-- The idealized reference runs and keeps its arguments: its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- The reference's first result is the kernel's `out0` of the same arguments. -/
theorem ref0 (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v56 m' c
      = Cert.Tail.attend (Cert.Spec.logits1 (m' ((c.tc : Thread Cert.ReferenceIdeal.nD Cert.ReferenceIdeal.τ).loc Cert.ReferenceIdeal.main_arg0))
          (Cert.Spec.affCol (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4) ix0) (m' ((c.tc : Thread Cert.ReferenceIdeal.nD Cert.ReferenceIdeal.τ).loc Cert.ReferenceIdeal.main_arg5) ix0))
          (Cert.Spec.affRowT (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2) ix0) (m' ((c.tc : Thread Cert.ReferenceIdeal.nD Cert.ReferenceIdeal.τ).loc Cert.ReferenceIdeal.main_arg3) ix0))
          (Cert.Spec.affRowT (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6) ix0) (m' ((c.tc : Thread Cert.ReferenceIdeal.nD Cert.ReferenceIdeal.τ).loc Cert.ReferenceIdeal.main_arg7) ix0))
          (m' ((c.tc : Thread Cert.ReferenceIdeal.nD Cert.ReferenceIdeal.τ).loc Cert.ReferenceIdeal.main_arg8) ix0) (m' ((c.tc : Thread Cert.ReferenceIdeal.nD Cert.ReferenceIdeal.τ).loc Cert.ReferenceIdeal.main_arg9) ix0)) (m' ((c.tc : Thread Cert.ReferenceIdeal.nD Cert.ReferenceIdeal.τ).loc Cert.ReferenceIdeal.main_arg0)) := by
  rw [Cert.ReferenceIdeal.Read.val_main_v56_eq, Cert.Tail.ref_out0, Cert.ReferenceIdeal.RefLogits.logits1_eq]

/-- The reference's second result is the kernel's `out1` of the same arguments. -/
theorem ref1 (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 m' c
      = Cert.Tail.attend (Cert.Spec.logits2 (m' ((c.tc : Thread Cert.ReferenceIdeal.nD Cert.ReferenceIdeal.τ).loc Cert.ReferenceIdeal.main_arg0))
          (Cert.Spec.affCol (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4) ix0) (m' ((c.tc : Thread Cert.ReferenceIdeal.nD Cert.ReferenceIdeal.τ).loc Cert.ReferenceIdeal.main_arg5) ix0))
          (Cert.Spec.affRowT (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2) ix0) (m' ((c.tc : Thread Cert.ReferenceIdeal.nD Cert.ReferenceIdeal.τ).loc Cert.ReferenceIdeal.main_arg3) ix0))
          (Cert.Spec.affRowT (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6) ix0) (m' ((c.tc : Thread Cert.ReferenceIdeal.nD Cert.ReferenceIdeal.τ).loc Cert.ReferenceIdeal.main_arg7) ix0))
          (m' ((c.tc : Thread Cert.ReferenceIdeal.nD Cert.ReferenceIdeal.τ).loc Cert.ReferenceIdeal.main_arg10) ix0) (m' ((c.tc : Thread Cert.ReferenceIdeal.nD Cert.ReferenceIdeal.τ).loc Cert.ReferenceIdeal.main_arg11) ix0)) (m' ((c.tc : Thread Cert.ReferenceIdeal.nD Cert.ReferenceIdeal.τ).loc Cert.ReferenceIdeal.main_arg1)) := by
  rw [Cert.ReferenceIdeal.Read.val_main_v58_eq, Cert.Tail.ref_out1, Cert.ReferenceIdeal.RefLogits.logits2_eq]

/-- From memories that agree on the arguments both idealized programs end with the same two results. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Result.out0 m c, fun c => Cert.KernelIdeal.Result.out1 m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [ref0 m' c]
    obtain ⟨e0, e1, e2, e3, e4, e5, e6, e7, e8, e9, e10, e11⟩ := hagree c
    rw [e0, e1, e2, e3, e4, e5, e6, e7, e8, e9]
    rfl
  · rw [ref1 m' c]
    obtain ⟨e0, e1, e2, e3, e4, e5, e6, e7, e8, e9, e10, e11⟩ := hagree c
    rw [e0, e1, e2, e3, e4, e5, e6, e7, e10, e11]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
